-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S131072x256 : Shape := ⟨2, ![131072, 256]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S_ : Shape := ⟨0, ![]⟩

class Facts : Prop where
  bcast_S_S131072x2 : S_.BroadcastsInDim S131072x2 (![] : Fin 0 → Fin S131072x2.rank)
  reducesTo_S131072x2_S_d0_1 : S131072x2.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S1024x32 : S_.BroadcastsInDim S1024x32 (![] : Fin 0 → Fin S1024x32.rank)
  reducesTo_S1024x32_S_d0_1 : S1024x32.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S32x256 : S_.BroadcastsInDim S32x256 (![] : Fin 0 → Fin S32x256.rank)
  reducesTo_S32x256_S_d0_1 : S32x256.ReducesTo [0, 1] S_

variable [Facts]

def fn_part3 {F : FTy → Type} [FloatOps F] (main_arg11 : FVec F S32 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S1024 .f32) (main_arg8 : FVec F S1024x256 .f32) (main_arg9 : FVec F S1024 .f32) (main_arg10 : FVec F S32x256 .f32) (main_arg11 : FVec F S32 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S32x256 .f32 := Host.absf main_arg10
  let main_cst_18 : FVec F S_ .f32 := constant S_ .f32 0x7F800000#32
  let main_v50 : FVec F S32x256 .f32 := broadcastInDim S32x256 ![] bcast_S_S32x256 main_cst_18
  fn_part3 (F := F) main_arg11 main_v48 main_v49 main_v50

def fn_part1 {F : FTy → Type} [FloatOps F] (main_arg4 : FVec F S32x8 .f32) (main_arg5 : FVec F S32 .f32) (main_arg6 : FVec F S1024x32 .f32) (main_arg7 : FVec F S1024 .f32) (main_arg8 : FVec F S1024x256 .f32) (main_arg9 : FVec F S1024 .f32) (main_arg10 : FVec F S32x256 .f32) (main_arg11 : FVec F S32 .f32) (main_v13 : IVec S_ 1) (main_v16 : IVec S131072x256 1) : IVec S_ 1 :=
  let main_c_5 : IVec S_ 1 := constantI S_ 1 1#1
  let main_v17 : IVec S_ 1 := (fun x v => Host.reduce IntOp.andi x v reducesTo_S131072x256_S_d0_1 h_S_) main_v16 main_c_5
  let main_v18 : IVec S_ 1 := andi main_v13 main_v17
  let main_v19 : FVec F S32x8 .f32 := Host.absf main_arg4
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x2 .f32) (main_arg1 : FVec F S131072x2 .f32) (main_arg2 : FVec F S131072x256 .f32) (main_arg3 : FVec F S131072x256 .f32) (main_arg4 : FVec F S32x8 .f32) (main_arg5 : FVec F S32 .f32) (main_arg6 : FVec F S1024x32 .f32) (main_arg7 : FVec F S1024 .f32) (main_arg8 : FVec F S1024x256 .f32) (main_arg9 : FVec F S1024 .f32) (main_arg10 : FVec F S32x256 .f32) (main_arg11 : FVec F S32 .f32) : IVec S_ 1 :=
  let main_v0 : FVec F S131072x2 .f32 := Host.absf main_arg0
  let main_cst : FVec F S_ .f32 := constant S_ .f32 0x7F800000#32
  let main_v1 : FVec F S131072x2 .f32 := broadcastInDim S131072x2 ![] bcast_S_S131072x2 main_cst
  let main_v2 : IVec S131072x2 1 := cmpf .olt main_v0 main_v1
  let main_c : IVec S_ 1 := constantI S_ 1 1#1
  let main_v3 : IVec S_ 1 := (fun x v => Host.reduce IntOp.andi x v reducesTo_S131072x2_S_d0_1 h_S_) main_v2 main_c
  let main_v4 : FVec F S131072x2 .f32 := Host.absf main_arg1
  let main_cst_0 : FVec F S_ .f32 := constant S_ .f32 0x7F800000#32
  let main_v5 : FVec F S131072x2 .f32 := broadcastInDim S131072x2 ![] bcast_S_S131072x2 main_cst_0
  let main_v6 : IVec S131072x2 1 := cmpf .olt main_v4 main_v5
  let main_c_1 : IVec S_ 1 := constantI S_ 1 1#1
  let main_v7 : IVec S_ 1 := (fun x v => Host.reduce IntOp.andi x v reducesTo_S131072x2_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S131072x256 .f32 := Host.absf main_arg3
  let main_cst_4 : FVec F S_ .f32 := constant S_ .f32 0x7F800000#32
  let main_v15 : FVec F S131072x256 .f32 := broadcastInDim S131072x256 ![] bcast_S_S131072x256 main_cst_4
  let main_v16 : IVec S131072x256 1 := cmpf .olt main_v14 main_v15
  fn_part1 (F := F) main_arg4 main_arg5 main_arg6 main_arg7 main_arg8 main_arg9 main_arg10 main_arg11 main_v13 main_v16
-- ==== Kernel.lean ====
abbrev S131072x2 : Shape := ⟨2, ![131072, 2]⟩
abbrev S131072x256 : Shape := ⟨2, ![131072, 256]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S1x4 : Shape := ⟨2, ![1, 4]⟩
abbrev S4096x2 : Shape := ⟨2, ![4096, 2]⟩
abbrev S4096x4 : Shape := ⟨2, ![4096, 4]⟩
abbrev S4 : Shape := ⟨1, ![4]⟩
abbrev S8x32 : Shape := ⟨2, ![8, 32]⟩
abbrev S32x1024 : Shape := ⟨2, ![32, 1024]⟩
abbrev S256x1024 : Shape := ⟨2, ![256, 1024]⟩
abbrev S256x32 : Shape := ⟨2, ![256, 32]⟩
abbrev S131072x32 : Shape := ⟨2, ![131072, 32]⟩
abbrev S1024x2 : Shape := ⟨2, ![1024, 2]⟩
abbrev S1024x4 : Shape := ⟨2, ![1024, 4]⟩
abbrev S1024x8 : Shape := ⟨2, ![1024, 8]⟩
abbrev S1x32 : Shape := ⟨2, ![1, 32]⟩
abbrev S1024x1024 : Shape := ⟨2, ![1024, 1024]⟩
abbrev S1x1024 : Shape := ⟨2, ![1, 1024]⟩

abbrev nBuf : Space → Nat
  | .hbm => 18
  | .vmem => 24
  | .smem => 0
  | _ => 0

abbrev bufTy : (tb : Table) → Fin (tcTables nBuf tb) → BufTy
  | .hbm, ⟨0, _⟩ => ⟨S131072x2, .f32⟩
  | .hbm, ⟨1, _⟩ => ⟨S131072x2, .f32⟩
  | .hbm, ⟨2, _⟩ => ⟨S131072x256, .f32⟩
  | .hbm, ⟨3, _⟩ => ⟨S131072x256, .f32⟩
  | .hbm, ⟨4, _⟩ => ⟨S32x8, .f32⟩
  | .hbm, ⟨5, _⟩ => ⟨S32, .f32⟩
  | .hbm, ⟨6, _⟩ => ⟨S1024x32, .f32⟩
  | .hbm, ⟨7, _⟩ => ⟨S1024, .f32⟩
  | .hbm, ⟨8, _⟩ => ⟨S1024x256, .f32⟩
  | .hbm, ⟨9, _⟩ => ⟨S1024, .f32⟩
  | .hbm, ⟨10, _⟩ => ⟨S32x256, .f32⟩
  | .hbm, ⟨11, _⟩ => ⟨S32, .f32⟩
  | .hbm, ⟨12, _⟩ => ⟨S1x4, .f32⟩
  | .hbm, ⟨13, _⟩ => ⟨S8x32, .f32⟩
  | .hbm, ⟨14, _⟩ => ⟨S32x1024, .f32⟩
  | .hbm, ⟨15, _⟩ => ⟨S256x1024, .f32⟩
  | .hbm, ⟨16, _⟩ => ⟨S256x32, .f32⟩
  | .hbm, ⟨17, _⟩ => ⟨S131072x32, .f32⟩
  | .local _ .vmem, ⟨0, _⟩ => ⟨S4096x2, .f32⟩
  | .local _ .vmem, ⟨1, _⟩ => ⟨S4096x2, .f32⟩
  | .local _ .vmem, ⟨2, _⟩ => ⟨S4096x2, .f32⟩
  | .local _ .vmem, ⟨3, _⟩ => ⟨S4096x2, .f32⟩
  | .local _ .vmem, ⟨4, _⟩ => ⟨S1x4, .f32⟩
  | .local _ .vmem, ⟨5, _⟩ => ⟨S1024x2, .f32⟩
  | .local _ .vmem, ⟨6, _⟩ => ⟨S1024x2, .f32⟩
  | .local _ .vmem, ⟨7, _⟩ => ⟨S1024x2, .f32⟩
  | .local _ .vmem, ⟨8, _⟩ => ⟨S1024x2, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1x4, .f32⟩
  | .local _ .vmem, ⟨14, _⟩ => ⟨S8x32, .f32⟩
  | .local _ .vmem, ⟨15, _⟩ => ⟨S32, .f32⟩
  | .local _ .vmem, ⟨16, _⟩ => ⟨S32x1024, .f32⟩
  | .local _ .vmem, ⟨17, _⟩ => ⟨S1024, .f32⟩
  | .local _ .vmem, ⟨18, _⟩ => ⟨S256x1024, .f32⟩
  | .local _ .vmem, ⟨19, _⟩ => ⟨S1024, .f32⟩
  | .local _ .vmem, ⟨20, _⟩ => ⟨S256x32, .f32⟩
  | .local _ .vmem, ⟨21, _⟩ => ⟨S32, .f32⟩
  | .local _ .vmem, ⟨22, _⟩ => ⟨S1024x32, .f32⟩
  | .local _ .vmem, ⟨23, _⟩ => ⟨S1024x32, .f32⟩
  | _, _ => ⟨S131072x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1024x32 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  inb_S1x4_S1x4_0_0 : ∀ a, (![0, 0] : Fin 2 → Nat) a + S1x4.size a ≤ S1x4.size a
  h_S1x4 : 0 < S1x4.numel
  inb_S4096x2_S4096x2_0_0 : ∀ a, (![0, 0] : Fin 2 → Nat) a + S4096x2.size a ≤ S4096x2.size a
  h_S4096x2 : 0 < S4096x2.numel
  concatenates_S4096x2_S4096x2_S4096x4_d1 : Shape.Concatenates [S4096x2, S4096x2] S4096x4 1
  shapeCasts_S1x4_S1x4 : S1x4.ShapeCasts S1x4
  reduces_S4096x4_S4 : S4096x4.Reduces [0] S4
  shapeCasts_S4_S1x4 : S4.ShapeCasts S1x4
  transposes_S32x8_S8x32_1_0 : S32x8.Transposes [1, 0] S8x32
  transposes_S1024x32_S32x1024_1_0 : S1024x32.Transposes [1, 0] S32x1024
  transposes_S1024x256_S256x1024_1_0 : S1024x256.Transposes [1, 0] S256x1024
  transposes_S32x256_S256x32_1_0 : S32x256.Transposes [1, 0] S256x32
  inb_S1024x2_S1024x2_0_0 : ∀ a, (![0, 0] : Fin 2 → Nat) a + S1024x2.size a ≤ S1024x2.size a
  h_S1024x2 : 0 < S1024x2.numel
  concatenates_S1024x2_S1024x2_S1024x4_d1 : Shape.Concatenates [S1024x2, S1024x2] S1024x4 1
  broadcasts_S1x4_S1024x4 : S1x4.Broadcasts S1024x4
  concatenates_S1024x4_S1024x4_S1024x8_d1 : Shape.Concatenates [S1024x4, S1024x4] S1024x8 1
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S1024x256_S1024x256_0_0 : ∀ a, (![0, 0] : Fin 2 → Nat) a + S1024x256.size a ≤ S1024x256.size a
  h_S1024x256 : 0 < S1024x256.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1024x32_S1024x32_0_0 : ∀ a, (![0, 0] : Fin 2 → Nat) a + S1024x32.size a ≤ S1024x32.size a
  h_S1024x32 : 0 < S1024x32.numel
  dot_S1024x8_S8x32_S1024x32_1_0_0_1_n_n_wf : DotDims.WF S1024x8 S8x32 S1024x32 [1] [0] [0] [1] [] []
  dot_S1024x32_S32x1024_S1024x1024_1_0_0_1_n_n_wf : DotDims.WF S1024x32 S32x1024 S1024x1024 [1] [0] [0] [1] [] []
  dot_S1024x256_S256x1024_S1024x1024_1_0_0_1_n_n_wf : DotDims.WF S1024x256 S256x1024 S1024x1024 [1] [0] [0] [1] [] []
  dot_S1024x256_S256x32_S1024x32_1_0_0_1_n_n_wf : DotDims.WF S1024x256 S256x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S131072x2.size a
  hwx0_0 : ∀ i : grid0.Coords, EltTy.bits .f32 = 32 ∨ (Rect.block (s := S131072x2) S4096x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S131072x2.size a
  hwx0_1 : ∀ i : grid0.Coords, EltTy.bits .f32 = 32 ∨ (Rect.block (s := S131072x2) S4096x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2.size a ≤ S131072x2.size a
  hwx1_0 : ∀ i : grid1.Coords, EltTy.bits .f32 = 32 ∨ (Rect.block (s := S131072x2) S1024x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2.size a ≤ S131072x2.size a
  hwx1_1 : ∀ i : grid1.Coords, EltTy.bits .f32 = 32 ∨ (Rect.block (s := S131072x2) S1024x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S131072x256.size a
  hwx1_2 : ∀ i : grid1.Coords, EltTy.bits .f32 = 32 ∨ (Rect.block (s := S131072x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S131072x256.size a
  hwx1_3 : ∀ i : grid1.Coords, EltTy.bits .f32 = 32 ∨ (Rect.block (s := S131072x256) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4.size a ≤ S1x4.size a
  hwx1_4 : ∀ i : grid1.Coords, EltTy.bits .f32 = 32 ∨ (Rect.block (s := S1x4) S1x4.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x32.size a ≤ S8x32.size a
  hwx1_5 : ∀ i : grid1.Coords, EltTy.bits .f32 = 32 ∨ (Rect.block (s := S8x32) S8x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1024.size a ≤ S32x1024.size a
  hwx1_7 : ∀ i : grid1.Coords, EltTy.bits .f32 = 32 ∨ (Rect.block (s := S32x1024) S32x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1024.size a ≤ S1024.size a
  hwx1_8 : ∀ i : grid1.Coords, EltTy.bits .f32 = 32 ∨ (Rect.block (s := S1024) S1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x1024.size a ≤ S256x1024.size a
  hwx1_9 : ∀ i : grid1.Coords, EltTy.bits .f32 = 32 ∨ (Rect.block (s := S256x1024) S256x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1024.size a ≤ S1024.size a
  hwx1_10 : ∀ i : grid1.Coords, EltTy.bits .f32 = 32 ∨ (Rect.block (s := S1024) S1024.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x32.size a ≤ S256x32.size a
  hwx1_11 : ∀ i : grid1.Coords, EltTy.bits .f32 = 32 ∨ (Rect.block (s := S256x32) S256x32.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S32.size a ≤ S32.size a
  hwx1_12 : ∀ i : grid1.Coords, EltTy.bits .f32 = 32 ∨ (Rect.block (s := S32) S32.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1024x32.size a ≤ S131072x32.size a
  hwx1_13 : ∀ i : grid1.Coords, EltTy.bits .f32 = 32 ∨ (Rect.block (s := S131072x32) S1024x32.size (cc1_transform_13 i) (hinb1_13 i)).WholeWords (EltTy.packing .f32)

variable [Facts₀]

def dot_S1024x8_S8x32_S1024x32_1_0_0_1_n_n : DotDims S1024x8 S8x32 S1024x32 where
  lhsContracting := [1]
  rhsContracting := [0]
  lhsNonContracting := [0]
  rhsNonContracting := [1]
  lhsBatch := []
  rhsBatch := []
  wf := dot_S1024x8_S8x32_S1024x32_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf

abbrev win0_0 : Pipeline.Window sig grid0 :=
  Pipeline.Window.ofSpec (Memref.whole main_arg0) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S8x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S32x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3) S256x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg9) S1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v4) S256x32.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg11) S32.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v5) S1024x32.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S131072x2 : Shape := ⟨2, ![131072, 2]⟩
abbrev S131072x256 : Shape := ⟨2, ![131072, 256]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S131072x4 : Shape := ⟨2, ![131072, 4]⟩
abbrev S_ : Shape := ⟨0, ![]⟩
abbrev S4 : Shape := ⟨1, ![4]⟩
abbrev S1x4 : Shape := ⟨2, ![1, 4]⟩
abbrev S131072x8 : Shape := ⟨2, ![131072, 8]⟩
abbrev S8x32 : Shape := ⟨2, ![8, 32]⟩
abbrev S131072x32 : Shape := ⟨2, ![131072, 32]⟩
abbrev S1x32 : Shape := ⟨2, ![1, 32]⟩
abbrev S32x1024 : Shape := ⟨2, ![32, 1024]⟩
abbrev S131072x1024 : Shape := ⟨2, ![131072, 1024]⟩
abbrev S1x1024 : Shape := ⟨2, ![1, 1024]⟩
abbrev S256x1024 : Shape := ⟨2, ![256, 1024]⟩
abbrev S256x32 : Shape := ⟨2, ![256, 32]⟩

abbrev nBuf : Space → Nat
  | .hbm => 78
  | .vmem => 0
  | .smem => 0
  | _ => 0

abbrev bufTy : (tb : Table) → Fin (tcTables nBuf tb) → BufTy
  | .hbm, ⟨0, _⟩ => ⟨S131072x2, .f32⟩
  | .hbm, ⟨1, _⟩ => ⟨S131072x2, .f32⟩
  | .hbm, ⟨2, _⟩ => ⟨S131072x256, .f32⟩
  | .hbm, ⟨3, _⟩ => ⟨S131072x256, .f32⟩
  | .hbm, ⟨4, _⟩ => ⟨S32x8, .f32⟩
  | .hbm, ⟨5, _⟩ => ⟨S32, .f32⟩
  | .hbm, ⟨6, _⟩ => ⟨S1024x32, .f32⟩
  | .hbm, ⟨7, _⟩ => ⟨S1024, .f32⟩
  | .hbm, ⟨8, _⟩ => ⟨S1024x256, .f32⟩
  | .hbm, ⟨9, _⟩ => ⟨S1024, .f32⟩
  | .hbm, ⟨10, _⟩ => ⟨S32x256, .f32⟩
  | .hbm, ⟨11, _⟩ => ⟨S32, .f32⟩
  | .hbm, ⟨12, _⟩ => ⟨S131072x2, .f32⟩
  | .hbm, ⟨13, _⟩ => ⟨S131072x4, .f32⟩
  | .hbm, ⟨14, _⟩ => ⟨S_, .f32⟩
  | .hbm, ⟨15, _⟩ => ⟨S4, .f32⟩
  | .hbm, ⟨16, _⟩ => ⟨S1x4, .f32⟩
  | .hbm, ⟨17, _⟩ => ⟨S131072x4, .f32⟩
  | .hbm, ⟨18, _⟩ => ⟨S131072x4, .f32⟩
  | .hbm, ⟨19, _⟩ => ⟨S131072x8, .f32⟩
  | .hbm, ⟨20, _⟩ => ⟨S8x32, .f32⟩
  | .hbm, ⟨21, _⟩ => ⟨S131072x32, .f32⟩
  | .hbm, ⟨22, _⟩ => ⟨S1x32, .f32⟩
  | .hbm, ⟨23, _⟩ => ⟨S131072x32, .f32⟩
  | .hbm, ⟨24, _⟩ => ⟨S131072x32, .f32⟩
  | .hbm, ⟨25, _⟩ => ⟨S_, .f32⟩
  | .hbm, ⟨26, _⟩ => ⟨S131072x32, .f32⟩
  | .hbm, ⟨27, _⟩ => ⟨S131072x32, .f32⟩
  | .hbm, ⟨28, _⟩ => ⟨S32x1024, .f32⟩
  | .hbm, ⟨29, _⟩ => ⟨S131072x1024, .f32⟩
  | .hbm, ⟨30, _⟩ => ⟨S1x1024, .f32⟩
  | .hbm, ⟨31, _⟩ => ⟨S131072x1024, .f32⟩
  | .hbm, ⟨32, _⟩ => ⟨S131072x1024, .f32⟩
  | .hbm, ⟨33, _⟩ => ⟨S256x1024, .f32⟩
  | .hbm, ⟨34, _⟩ => ⟨S131072x1024, .f32⟩
  | .hbm, ⟨35, _⟩ => ⟨S131072x1024, .f32⟩
  | .hbm, ⟨36, _⟩ => ⟨S1x1024, .f32⟩
  | .hbm, ⟨37, _⟩ => ⟨S131072x1024, .f32⟩
  | .hbm, ⟨38, _⟩ => ⟨S131072x1024, .f32⟩
  | .hbm, ⟨39, _⟩ => ⟨S131072x256, .f32⟩
  | .hbm, ⟨40, _⟩ => ⟨S131072x256, .f32⟩
  | .hbm, ⟨41, _⟩ => ⟨S131072x256, .f32⟩
  | .hbm, ⟨42, _⟩ => ⟨S131072x256, .f32⟩
  | .hbm, ⟨43, _⟩ => ⟨S131072x256, .f32⟩
  | .hbm, ⟨44, _⟩ => ⟨S131072x256, .f32⟩
  | .hbm, ⟨45, _⟩ => ⟨S_, .f32⟩
  | .hbm, ⟨46, _⟩ => ⟨S131072x256, .f32⟩
  | .hbm, ⟨47, _⟩ => ⟨S131072x256, .f32⟩
  | .hbm, ⟨48, _⟩ => ⟨S_, .f32⟩
  | .hbm, ⟨49, _⟩ => ⟨S131072x256, .f32⟩
  | .hbm, ⟨50, _⟩ => ⟨S131072x256, .f32⟩
  | .hbm, ⟨51, _⟩ => ⟨S131072x256, .f32⟩
  | .hbm, ⟨52, _⟩ => ⟨S131072x256, .f32⟩
  | .hbm, ⟨53, _⟩ => ⟨S131072x256, .f32⟩
  | .hbm, ⟨54, _⟩ => ⟨S_, .f32⟩
  | .hbm, ⟨55, _⟩ => ⟨S131072x256, .f32⟩
  | .hbm, ⟨56, _⟩ => ⟨S131072x256, .f32⟩
  | .hbm, ⟨57, _⟩ => ⟨S_, .f32⟩
  | .hbm, ⟨58, _⟩ => ⟨S131072x256, .f32⟩
  | .hbm, ⟨59, _⟩ => ⟨S131072x256, .f32⟩
  | .hbm, ⟨60, _⟩ => ⟨S131072x256, .f32⟩
  | .hbm, ⟨61, _⟩ => ⟨S131072x256, .f32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S131072x256, .f32⟩
  | .hbm, ⟨67, _⟩ => ⟨S131072x256, .f32⟩
  | .hbm, ⟨68, _⟩ => ⟨S_, .f32⟩
  | .hbm, ⟨69, _⟩ => ⟨S131072x256, .f32⟩
  | .hbm, ⟨70, _⟩ => ⟨S131072x256, .f32⟩
  | .hbm, ⟨71, _⟩ => ⟨S131072x256, .f32⟩
  | .hbm, ⟨72, _⟩ => ⟨S131072x256, .f32⟩
  | .hbm, ⟨73, _⟩ => ⟨S256x32, .f32⟩
  | .hbm, ⟨74, _⟩ => ⟨S131072x32, .f32⟩
  | .hbm, ⟨75, _⟩ => ⟨S1x32, .f32⟩
  | .hbm, ⟨76, _⟩ => ⟨S131072x32, .f32⟩
  | .hbm, ⟨77, _⟩ => ⟨S131072x32, .f32⟩
  | _, _ => ⟨S131072x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  concatenates_S131072x2_S131072x2_S131072x4_d1 : Shape.Concatenates [S131072x2, S131072x2] S131072x4 1
  reducesTo_S131072x4_S4_d0 : S131072x4.ReducesTo [0] S4
  h_S_ : 0 < S_.numel
  bcast_S4_S1x4_1 : S4.BroadcastsInDim S1x4 (![1] : Fin 1 → Fin S1x4.rank)
  bcast_S1x4_S131072x4_0_1 : S1x4.BroadcastsInDim S131072x4 (![0, 1] : Fin 2 → Fin S131072x4.rank)
  concatenates_S131072x4_S131072x4_S131072x8_d1 : Shape.Concatenates [S131072x4, S131072x4] S131072x8 1
  transposes_S32x8_S8x32_1_0 : S32x8.Transposes [1, 0] S8x32
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  transposes_S1024x32_S32x1024_1_0 : S1024x32.Transposes [1, 0] S32x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  transposes_S1024x256_S256x1024_1_0 : S1024x256.Transposes [1, 0] S256x1024
  slices_S131072x1024_S131072x256_0_0 : S131072x1024.Slices ![0, 0] S131072x256
  slices_S131072x1024_S131072x256_0_256 : S131072x1024.Slices ![0, 256] S131072x256
  slices_S131072x1024_S131072x256_0_512 : S131072x1024.Slices ![0, 512] S131072x256
  slices_S131072x1024_S131072x256_0_768 : S131072x1024.Slices ![0, 768] S131072x256
  bcast_S_S131072x256 : S_.BroadcastsInDim S131072x256 (![] : Fin 0 → Fin S131072x256.rank)
  transposes_S32x256_S256x32_1_0 : S32x256.Transposes [1, 0] S256x32
  dot_S131072x8_S8x32_S131072x32_1_0_0_1_n_n_wf : DotDims.WF S131072x8 S8x32 S131072x32 [1] [0] [0] [1] [] []
  dot_S131072x32_S32x1024_S131072x1024_1_0_0_1_n_n_wf : DotDims.WF S131072x32 S32x1024 S131072x1024 [1] [0] [0] [1] [] []
  dot_S131072x256_S256x1024_S131072x1024_1_0_0_1_n_n_wf : DotDims.WF S131072x256 S256x1024 S131072x1024 [1] [0] [0] [1] [] []
  dot_S131072x256_S256x32_S131072x32_1_0_0_1_n_n_wf : DotDims.WF S131072x256 S256x32 S131072x32 [1] [0] [0] [1] [] []

variable [Facts₀]

def dot_S131072x8_S8x32_S131072x32_1_0_0_1_n_n : DotDims S131072x8 S8x32 S131072x32 where
  lhsContracting := [1]
  rhsContracting := [0]
  lhsNonContracting := [0]
  rhsNonContracting := [1]
  lhsBatch := []
  rhsBatch := []
  wf := dot_S131072x8_S8x32_S131072x32_1_0_0_1_n_n_wf
def dot_S131072x32_S32x1024_S131072x1024_1_0_0_1_n_n : DotDims S131072x32 S32x1024 S131072x1024 where
  lhsContracting := [1]
  rhsContracting := [0]
  lhsNonContracting := [0]
  rhsNonContracting := [1]
  lhsBatch := []
  rhsBatch := []
  wf := dot_S131072x32_S32x1024_S131072x1024_1_0_0_1_n_n_wf
def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x256_S256x32_S131072x32_1_0_0_1_n_n : DotDims S131072x256 S256x32 S131072x32 where
  lhsContracting := [1]
  rhsContracting := [0]
  lhsNonContracting := [0]
  rhsNonContracting := [1]
  lhsBatch := []
  rhsBatch := []
  wf := dot_S131072x256_S256x32_S131072x32_1_0_0_1_n_n_wf

class Facts : Prop extends Facts₀ where

variable [Facts]
-- ==== Proof.Spec.lean ====
/-
  The computation, stage by stage, as functions of whole arrays.

  For N = 131072 pedestrians with two observed positions o₁, o₂ : [N, 2], an LSTM state (h₀, c₀) : [N, 256] and
  weights:
    states  = [o₂ | o₂ − o₁]                                   : [N, 4]
    total   = Σₙ states(n, ·)                                  : [4], kept as one row [1, 4]
    grid    = [states | total − states]                        : [N, 8]
    x       = max(grid · Wₑ + bₑ, 0)                           : [N, 32]
    gates   = ((x · Wᵢ + bᵢ) + h₀ · Wₕ) + bₕ                   : [N, 1024], four column groups i | f | g | o
    c₁      = σ(f) · c₀ + σ(i) · tanh(g)                       : [N, 256]
    h₁      = σ(o) · tanh(c₁)                                  : [N, 256]
    out     = h₁ · Wₚ + bₚ                                     : [N, 32]
  with σ(z) = 1 / (1 + e⁻ᶻ). The weight matrices enter already transposed ([8, 32], [32, 1024], [256, 1024],
  [256, 32]), and the total enters as a parameter (a [1, 4] row), so that the same functions describe a program
  that computes the total in a first pass and a program that computes it in place.
-/
import proofs.«122400_j46634754900237_1_alg».proof.Proof.Gen.ReferenceIdeal

noncomputable section

namespace Cert.Spec

open Idealize.ShloMosaic Cert.ReferenceIdeal Cert.ReferenceIdeal.Gen

variable {F : FTy → Type} [FloatOps F]

/-- `[o₂ | o₂ − o₁]`: position and velocity side by side. -/
def states (O1 O2 : FVec F S131072x2 .f32) : FVec F S131072x4 .f32 :=
  concatenate S131072x4 1 [⟨S131072x2, O2⟩, ⟨S131072x2, subf O2 O1⟩] concatenates_S131072x2_S131072x2_S131072x4_d1

/-- The column sums of `states`, from zero. -/
def total (O1 O2 : FVec F S131072x2 .f32) : FVec F S4 .f32 :=
  Host.reduceAdd (states O1 O2) (constant S_ .f32 0x00000000#32) reducesTo_S131072x4_S4_d0 h_S_

/-- The column sums as one row `[1, 4]`. -/
def totalRow (O1 O2 : FVec F S131072x2 .f32) : FVec F S1x4 .f32 :=
  broadcastInDim S1x4 ![1] bcast_S4_S1x4_1 (total O1 O2)

/-- `[states | T − states]` for a row `T` repeated over all rows. -/
def gridIn (O1 O2 : FVec F S131072x2 .f32) (T : FVec F S1x4 .f32) : FVec F S131072x8 .f32 :=
  concatenate S131072x8 1 [⟨S131072x4, states O1 O2⟩,
    ⟨S131072x4, subf (broadcastInDim S131072x4 ![0, 1] bcast_S1x4_S131072x4_0_1 T) (states O1 O2)⟩]
    concatenates_S131072x4_S131072x4_S131072x8_d1

/-- The embedding: `max(grid · Wₑ + bₑ, 0)`. -/
def embed (O1 O2 : FVec F S131072x2 .f32) (T : FVec F S1x4 .f32) (We : FVec F S8x32 .f32) (be : FVec F S32 .f32) :
    FVec F S131072x32 .f32 :=
  maximumf (addf (Host.dotGeneral dot_S131072x8_S8x32_S131072x32_1_0_0_1_n_n none (gridIn O1 O2 T) We)
      (broadcastInDim S131072x32 ![0, 1] bcast_S1x32_S131072x32_0_1 (broadcastInDim S1x32 ![1] bcast_S32_S1x32_1 be)))
    (broadcastInDim S131072x32 ![] bcast_S_S131072x32 (constant S_ .f32 0x00000000#32))

/-- The four gates side by side: `((x · Wᵢ + bᵢ) + h₀ · Wₕ) + bₕ`. -/
def gates (x : FVec F S131072x32 .f32) (H0 : FVec F S131072x256 .f32) (Wi : FVec F S32x1024 .f32) (bi : FVec F S1024 .f32)
    (Wh : FVec F S256x1024 .f32) (bh : FVec F S1024 .f32) : FVec F S131072x1024 .f32 :=
  addf (addf (addf (Host.dotGeneral dot_S131072x32_S32x1024_S131072x1024_1_0_0_1_n_n none x Wi)
        (broadcastInDim S131072x1024 ![0, 1] bcast_S1x1024_S131072x1024_0_1 (broadcastInDim S1x1024 ![1] bcast_S1024_S1x1024_1 bi)))
      (Host.dotGeneral dot_S131072x256_S256x1024_S131072x1024_1_0_0_1_n_n none H0 Wh))
    (broadcastInDim S131072x1024 ![0, 1] bcast_S1x1024_S131072x1024_0_1 (broadcastInDim S1x1024 ![1] bcast_S1024_S1x1024_1 bh))

/-- `1 / (1 + e⁻ᶻ)`, entry by entry. -/
def sigm (A : FVec F S131072x256 .f32) : FVec F S131072x256 .f32 :=
  Host.divf (broadcastInDim S131072x256 ![] bcast_S_S131072x256 (constant S_ .f32 0x3F800000#32))
    (addf (broadcastInDim S131072x256 ![] bcast_S_S131072x256 (constant S_ .f32 0x3F800000#32)) (Host.exp (Host.negf A)))

/-- The new cell state `σ(f) · c₀ + σ(i) · tanh(g)`. -/
def cell (g : FVec F S131072x1024 .f32) (C0 : FVec F S131072x256 .f32) : FVec F S131072x256 .f32 :=
  addf (mulf (sigm (extractStridedSlice S131072x256 ![0, 256] g slices_S131072x1024_S131072x256_0_256)) C0)
    (mulf (sigm (extractStridedSlice S131072x256 ![0, 0] g slices_S131072x1024_S131072x256_0_0))
      (Host.tanh (extractStridedSlice S131072x256 ![0, 512] g slices_S131072x1024_S131072x256_0_512)))

/-- The new hidden state `σ(o) · tanh(c₁)`. -/
def hidden (g : FVec F S131072x1024 .f32) (C0 : FVec F S131072x256 .f32) : FVec F S131072x256 .f32 :=
  mulf (sigm (extractStridedSlice S131072x256 ![0, 768] g slices_S131072x1024_S131072x256_0_768)) (Host.tanh (cell g C0))

/-- The projection `h₁ · Wₚ + bₚ`. -/
def project (h : FVec F S131072x256 .f32) (Wp : FVec F S256x32 .f32) (bp : FVec F S32 .f32) : FVec F S131072x32 .f32 :=
  addf (Host.dotGeneral dot_S131072x256_S256x32_S131072x32_1_0_0_1_n_n none h Wp)
    (broadcastInDim S131072x32 ![0, 1] bcast_S1x32_S131072x32_0_1 (broadcastInDim S1x32 ![1] bcast_S32_S1x32_1 bp))

/-- The whole computation from the arrays, the total row `T` a parameter. -/
def whole (O1 O2 : FVec F S131072x2 .f32) (H0 C0 : FVec F S131072x256 .f32) (T : FVec F S1x4 .f32)
    (We : FVec F S8x32 .f32) (be : FVec F S32 .f32) (Wi : FVec F S32x1024 .f32) (bi : FVec F S1024 .f32)
    (Wh : FVec F S256x1024 .f32) (bh : FVec F S1024 .f32) (Wp : FVec F S256x32 .f32) (bp : FVec F S32 .f32) :
    FVec F S131072x32 .f32 :=
  project (hidden (gates (embed O1 O2 T We be) H0 Wi bi Wh bh) C0) Wp bp

end Cert.Spec

end
-- ==== Proof.RefRun.lean ====
/-
  The reference program's result is the staged computation of the argument arrays, with the total computed in
  place and the weights transposed on the way in.
-/
import proofs.«122400_j46634754900237_1_alg».proof.Proof.Gen.ReferenceIdeal.Run
import proofs.«122400_j46634754900237_1_alg».proof.Proof.Spec

noncomputable section

namespace Cert.RefSide

open Idealize.ShloMosaic Idealize.ShloMosaic.TcCoe Idealize.SL.Sem
open Cert.ReferenceIdeal Cert.ReferenceIdeal.Gen

variable {F : FTy → Type} [FloatOps F]

/-- The reference's result from a launch memory: the staged computation at the argument arrays. -/
def result (m : (ℓ : Loc nD τ sig) → Buf (Elt F) ℓ) (c : Dev nD) : Buf (Elt F) ((c.tc : Thread nD τ).loc main_v56) :=
  Cert.Spec.whole (m ((c.tc : Thread nD τ).loc main_arg0)) (m ((c.tc : Thread nD τ).loc main_arg1))
    (m ((c.tc : Thread nD τ).loc main_arg2)) (m ((c.tc : Thread nD τ).loc main_arg3))
    (Cert.Spec.totalRow (m ((c.tc : Thread nD τ).loc main_arg0)) (m ((c.tc : Thread nD τ).loc main_arg1)))
    (transpose S8x32 [1, 0] (m ((c.tc : Thread nD τ).loc main_arg4)) transposes_S32x8_S8x32_1_0)
    (m ((c.tc : Thread nD τ).loc main_arg5))
    (transpose S32x1024 [1, 0] (m ((c.tc : Thread nD τ).loc main_arg6)) transposes_S1024x32_S32x1024_1_0)
    (m ((c.tc : Thread nD τ).loc main_arg7))
    (transpose S256x1024 [1, 0] (m ((c.tc : Thread nD τ).loc main_arg8)) transposes_S1024x256_S256x1024_1_0)
    (m ((c.tc : Thread nD τ).loc main_arg9))
    (transpose S256x32 [1, 0] (m ((c.tc : Thread nD τ).loc main_arg10)) transposes_S32x256_S256x32_1_0)
    (m ((c.tc : Thread nD τ).loc main_arg11))

/-- The composed term of the host operations is that computation: the stages unfold to it. -/
theorem res_eq (m : (ℓ : Loc nD τ sig) → Buf (Elt F) ℓ) (c : Dev nD) :
    Cert.ReferenceIdeal.Value.res_main_v56 m c = result m c := rfl

end Cert.RefSide

end
-- ==== Proof.Between.lean ====
/-
  What the second kernel finds in its arrays: the four streamed arrays and the four bias vectors as launched (no
  host operation and no earlier kernel writes them), the four weight matrices transposed by the host operations
  between the two kernels, and the total row as the first kernel's write-backs left it.
-/
import proofs.«122400_j46634754900237_1_alg».proof.Proof.Gen.KernelIdeal.Frame
import Idealize.ShloMosaic.Lib.StableHlo.Run

noncomputable section

namespace Cert.Hand.Between

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The first kernel finds the two observation arrays as launched. -/
theorem V0_arg0 (c : Dev nD) : V0 m ρ c main_arg0 = m ((c : Thread nD τ).loc main_arg0) := rfl
theorem V0_arg1 (c : Dev nD) : V0 m ρ c main_arg1 = m ((c : Thread nD τ).loc main_arg1) := rfl

/-- Array 0 of the launch, an input of the first kernel, reaches the second kernel unchanged. -/
theorem V2_arg0 (c : Dev nD) : V2 m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
      simp only [hostOps1, List.Forall, StableHlo.unary_writes, Finset.mem_singleton]
      repeat' apply And.intro
      all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- Array 1 of the launch, an input of the first kernel, reaches the second kernel unchanged. -/
theorem V2_arg1 (c : Dev nD) : V2 m ρ c main_arg1 = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps1, List.Forall, StableHlo.unary_writes, Finset.mem_singleton]
      repeat' apply And.intro
      all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
/-- Array 2 of the launch reaches the second kernel unchanged. -/
theorem V2_arg2 (c : Dev nD) : V2 m ρ c main_arg2 = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
      simp only [hostOps1, List.Forall, StableHlo.unary_writes, Finset.mem_singleton]
      repeat' apply And.intro
      all_goals exact StableHlo.devRef_ne_of_ne (by decide)))
    _ = W0 m ρ c (Proc.devRef .tc main_arg2) := W1_of_ne m ρ c main_arg2 (by decide)
    _ = m ((c : Thread nD τ).loc main_arg2) := rfl
/-- Array 3 of the launch reaches the second kernel unchanged. -/
theorem V2_arg3 (c : Dev nD) : V2 m ρ c main_arg3 = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
      simp only [hostOps1, List.Forall, StableHlo.unary_writes, Finset.mem_singleton]
      repeat' apply And.intro
      all_goals exact StableHlo.devRef_ne_of_ne (by decide)))
    _ = W0 m ρ c (Proc.devRef .tc main_arg3) := W1_of_ne m ρ c main_arg3 (by decide)
    _ = m ((c : Thread nD τ).loc main_arg3) := rfl
/-- Array 5 of the launch reaches the second kernel unchanged. -/
theorem V2_arg5 (c : Dev nD) : V2 m ρ c main_arg5 = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
      simp only [hostOps1, List.Forall, StableHlo.unary_writes, Finset.mem_singleton]
      repeat' apply And.intro
      all_goals exact StableHlo.devRef_ne_of_ne (by decide)))
    _ = W0 m ρ c (Proc.devRef .tc main_arg5) := W1_of_ne m ρ c main_arg5 (by decide)
    _ = m ((c : Thread nD τ).loc main_arg5) := rfl
/-- Array 7 of the launch reaches the second kernel unchanged. -/
theorem V2_arg7 (c : Dev nD) : V2 m ρ c main_arg7 = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
      simp only [hostOps1, List.Forall, StableHlo.unary_writes, Finset.mem_singleton]
      repeat' apply And.intro
      all_goals exact StableHlo.devRef_ne_of_ne (by decide)))
    _ = W0 m ρ c (Proc.devRef .tc main_arg7) := W1_of_ne m ρ c main_arg7 (by decide)
    _ = m ((c : Thread nD τ).loc main_arg7) := rfl
/-- Array 9 of the launch reaches the second kernel unchanged. -/
theorem V2_arg9 (c : Dev nD) : V2 m ρ c main_arg9 = m ((c : Thread nD τ).loc main_arg9) :=
  calc W2 m ρ c (Proc.devRef .tc main_arg9)
    _ = W1 m ρ c (Proc.devRef .tc main_arg9) := StableHlo.after_of_forall_not_mem (b := Proc.devRef .tc main_arg9) _ _ (List.forall_iff_forall_mem.mp (by
      simp only [hostOps1, List.Forall, StableHlo.unary_writes, Finset.mem_singleton]
      repeat' apply And.intro
      all_goals exact StableHlo.devRef_ne_of_ne (by decide)))
    _ = W0 m ρ c (Proc.devRef .tc main_arg9) := W1_of_ne m ρ c main_arg9 (by decide)
    _ = m ((c : Thread nD τ).loc main_arg9) := rfl
/-- Array 11 of the launch reaches the second kernel unchanged. -/
theorem V2_arg11 (c : Dev nD) : V2 m ρ c main_arg11 = m ((c : Thread nD τ).loc main_arg11) :=
  calc W2 m ρ c (Proc.devRef .tc main_arg11)
    _ = W1 m ρ c (Proc.devRef .tc main_arg11) := StableHlo.after_of_forall_not_mem (b := Proc.devRef .tc main_arg11) _ _ (List.forall_iff_forall_mem.mp (by
      simp only [hostOps1, List.Forall, StableHlo.unary_writes, Finset.mem_singleton]
      repeat' apply And.intro
      all_goals exact StableHlo.devRef_ne_of_ne (by decide)))
    _ = W0 m ρ c (Proc.devRef .tc main_arg11) := W1_of_ne m ρ c main_arg11 (by decide)
    _ = m ((c : Thread nD τ).loc main_arg11) := rfl

/-- The second kernel finds the total row as the first kernel's write-backs left it. -/
theorem V2_v0 (c : Dev nD) : V2 m ρ c main_v0 = (dat0 (V0 m ρ) c).arrAt 2 cfg0.N :=
  calc W2 m ρ c (Proc.devRef .tc main_v0)
    _ = W1 m ρ c (Proc.devRef .tc main_v0) := StableHlo.after_of_forall_not_mem (b := Proc.devRef .tc main_v0) _ _ (List.forall_iff_forall_mem.mp (by
      simp only [hostOps1, List.Forall, StableHlo.unary_writes, Finset.mem_singleton]
      repeat' apply And.intro
      all_goals exact StableHlo.devRef_ne_of_ne (by decide)))
    _ = (dat0 (V0 m ρ) c).arrAt 2 cfg0.N := W1_arr m ρ c 2

/-- The second kernel finds weight matrix 4 of the launch transposed. -/
theorem V2_v1 (c : Dev nD) : V2 m ρ c main_v1 = transpose S8x32 [1, 0] (m ((c : Thread nD τ).loc main_arg4)) transposes_S32x8_S8x32_1_0 := by
  show StableHlo.after hostOps1 (W1 m ρ c) (Proc.devRef .tc main_v1) = _
  after_results
  exact congrArg (fun x => transpose S8x32 [1, 0] x transposes_S32x8_S8x32_1_0) (W1_of_ne m ρ c main_arg4 (by decide))
/-- The second kernel finds weight matrix 6 of the launch transposed. -/
theorem V2_v2 (c : Dev nD) : V2 m ρ c main_v2 = transpose S32x1024 [1, 0] (m ((c : Thread nD τ).loc main_arg6)) transposes_S1024x32_S32x1024_1_0 := by
  show StableHlo.after hostOps1 (W1 m ρ c) (Proc.devRef .tc main_v2) = _
  after_results
  exact congrArg (fun x => transpose S32x1024 [1, 0] x transposes_S1024x32_S32x1024_1_0) (W1_of_ne m ρ c main_arg6 (by decide))
/-- The second kernel finds weight matrix 8 of the launch transposed. -/
theorem V2_v3 (c : Dev nD) : V2 m ρ c main_v3 = transpose S256x1024 [1, 0] (m ((c : Thread nD τ).loc main_arg8)) transposes_S1024x256_S256x1024_1_0 := by
  show StableHlo.after hostOps1 (W1 m ρ c) (Proc.devRef .tc main_v3) = _
  after_results
  exact congrArg (fun x => transpose S256x1024 [1, 0] x transposes_S1024x256_S256x1024_1_0) (W1_of_ne m ρ c main_arg8 (by decide))
/-- The second kernel finds weight matrix 10 of the launch transposed. -/
theorem V2_v4 (c : Dev nD) : V2 m ρ c main_v4 = transpose S256x32 [1, 0] (m ((c : Thread nD τ).loc main_arg10)) transposes_S32x256_S256x32_1_0 := by
  show StableHlo.after hostOps1 (W1 m ρ c) (Proc.devRef .tc main_v4) = _
  after_results
  exact congrArg (fun x => transpose S256x32 [1, 0] x transposes_S32x256_S256x32_1_0) (W1_of_ne m ρ c main_arg10 (by decide))

end Cert.Hand.Between

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibBlockSum.lean ====
/-
  A sum over nb·B consecutive rows, taken block by block.

  The rows 0 … nb·B − 1 split into nb blocks of B consecutive rows, block t holding rows B·t … B·t + B − 1; a sum
  over all rows is the sum over the blocks of the sums over each block's rows. Only commutativity and
  associativity of addition are used, so this holds in any commutative monoid (the extended reals with their
  infinities included).
-/
import Mathlib.Algebra.BigOperators.Fin
import Mathlib.Logic.Equiv.Fin.Basic

open scoped BigOperators

namespace Cert.BlockSum

variable {M : Type*} [AddCommMonoid M]

/-- Row `r` of block `t` is a row of the array. -/
theorem row_lt {nb B N : ℕ} (hN : nb * B = N) (t : Fin nb) (r : Fin B) : B * t.val + r.val < N :=
  calc B * t.val + r.val < B * t.val + B := Nat.add_lt_add_left r.isLt _
    _ = B * (t.val + 1) := (Nat.mul_succ B t.val).symm
    _ ≤ B * nb := Nat.mul_le_mul_left B t.isLt
    _ = N := by rw [Nat.mul_comm, hN]

/-- Row `r` of block `t`. -/
abbrev row {nb B N : ℕ} (hN : nb * B = N) (t : Fin nb) (r : Fin B) : Fin N := ⟨B * t.val + r.val, row_lt hN t r⟩

/-- A sum over the rows is the sum over the blocks of the sums over each block's rows. -/
theorem sum_blocks {nb B N : ℕ} (hN : nb * B = N) (x : Fin N → M) :
    ∑ n : Fin N, x n = ∑ t : Fin nb, ∑ r : Fin B, x (row hN t r) := by
  rw [← Equiv.sum_comp (finProdFinEquiv.trans (finCongr hN)) x, Fintype.sum_prod_type]
  refine Finset.sum_congr rfl fun t _ => Finset.sum_congr rfl fun r _ => congrArg x (Fin.ext ?_)
  show r.val + B * t.val = B * t.val + r.val
  exact Nat.add_comm _ _

/-- If the contribution of point `t` is the sum over block `t`'s rows, the contributions of the points
    0 … nb − 1 add up to the sum over all rows. -/
theorem sum_range_blocks {nb B N : ℕ} (hN : nb * B = N) (x : Fin N → M) (b : ℕ → M)
    (hb : ∀ t : Fin nb, b t.val = ∑ r : Fin B, x (row hN t r)) :
    ∑ s ∈ Finset.range nb, b s = ∑ n : Fin N, x n := by
  rw [Finset.sum_range, sum_blocks hN x]
  exact Finset.sum_congr rfl fun t _ => hb t

end Cert.BlockSum
-- ==== Proof.TotalRef.lean ====
/-
  The total row read at an entry: the host's sum along the rows, from zero, is zero plus the sum over all
  131072 rows of that column of states, and laying the four sums out as one row does not change them.
-/
import proofs.«122400_j46634754900237_1_alg».proof.Proof.Spec
import Idealize.ShloMosaic.PureOps.Ideal.Laws
import Idealize.ShloMosaic.Lib.ValueIdx
import Idealize.ShloMosaic.Lib.Pipeline.Value

noncomputable section

namespace Cert.Hand.TotalRef

open Idealize.ShloMosaic Idealize.ShloMosaic.ValueIdx Cert.ReferenceIdeal Cert.ReferenceIdeal.Gen

/-- Four numbers laid out as one row: entry `(0, j)` of the row is entry `j`. -/
theorem asRow_apply (u : FVec Ideal S4 .f32) (j : Fin 4) :
    broadcastInDim S1x4 ![1] bcast_S4_S1x4_1 u (ix2 (0 : Fin 1) j) = u (ix1 j) := by
  refine broadcastInDim_apply (s := S4) (t := S1x4) ![1] bcast_S4_S1x4_1 u (ix2 (0 : Fin 1) j) (ix1 j) fun a => ?_
  match a with
  | ⟨0, _⟩ => rfl

/-- The host's sum along the rows from the zero word: `0 + Σₙ X(n, j)`. -/
theorem colSum_apply (X : FVec Ideal S131072x4 .f32) (j : Fin 4) :
    Host.reduceAdd X (constant (F := Ideal) S_ .f32 0x00000000#32) reducesTo_S131072x4_S4_d0 h_S_ (ix1 j)
      = 0 + ∑ n : Fin 131072, X (ix2 n j) := by
  unfold Host.reduceAdd
  refine (Ideal.hostReduceAdd_single reducesTo_S131072x4_S4_d0 (by decide : S131072x4.Reduces [0] S4) X _ (ix1 j)).trans ?_
  refine congrArg₂ (· + ·) Ideal.ofBits_zero_f32 (Finset.sum_congr rfl fun n _ => congrArg X ?_)
  funext a
  match a with
  | ⟨0, _⟩ => exact Fin.ext rfl
  | ⟨1, _⟩ => exact Fin.ext rfl

/-- Entry `j` of the total row is `0 + Σₙ states(n, j)`. -/
theorem totalRow_apply (O1 O2 : FVec Ideal S131072x2 .f32) (j : Fin 4) :
    Cert.Spec.totalRow (F := Ideal) O1 O2 (ix2 (0 : Fin 1) j)
      = 0 + ∑ n : Fin 131072, Cert.Spec.states (F := Ideal) O1 O2 (ix2 n j) :=
  (asRow_apply (Cert.Spec.total (F := Ideal) O1 O2) j).trans (colSum_apply (Cert.Spec.states (F := Ideal) O1 O2) j)

end Cert.Hand.TotalRef

end
-- ==== Proof.Total.lean ====
/-
  The first kernel's result: the column sums of states, as one row.

  The grid has 32 points; point t loads rows 4096·t … 4096·t + 4095 of the two observation arrays. The result
  block is one row [1, 4] whose index never moves: the first point stores the zero row and adds its block's column
  sums of [o₂ | o₂ − o₁] to it, every later point adds its block's column sums to what it finds, and the block is
  written back once, after the last point. So the array ends at 0 + Σₜ Σᵣ states(4096·t + r, ·), which is the sum
  over all 131072 rows taken block by block: the row the reference computes by one sum from zero.
-/
import proofs.«122400_j46634754900237_1_alg».proof.Proof.Spec
import proofs.«122400_j46634754900237_1_alg».proof.Proof.LibRowBlock
import proofs.«122400_j46634754900237_1_alg».proof.Proof.LibBlockSum
import proofs.«122400_j46634754900237_1_alg».proof.Proof.TotalRef
import proofs.«122400_j46634754900237_1_alg».proof.Proof.Gen.KernelIdeal.Frame
import Idealize.ShloMosaic.Lib.Pipeline.Value
import Idealize.ShloMosaic.Lib.Tactic

noncomputable section

namespace Cert.Hand.Total

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## What each of the two cases leaves in the result block -/

section Cases
variable {F : FTy → Type} [FloatOps F]

theorem offs_zero : (![0, 0] : Fin 2 → Nat) = fun _ => 0 := funext fun a => by fin_cases a <;> rfl

/-- A later point: the block holding `xo` is left at the payload over the two loaded blocks and `xo`. -/
theorem later_value (c : Dev nD) (i : grid0.Coords) (a1 : Memref sig .tc .vmem S4096x2 .f32) (h1 : a1.IsWhole)
    (a2 : Memref sig .tc .vmem S4096x2 .f32) (h2 : a2.IsWhole) (a3 : Memref sig .tc .vmem S1x4 .f32) (h3 : a3.IsWhole)
    (hc : ¬cond0_0 i) (x0 x1 : Vec F S4096x2 .f32) (xo : Vec F S1x4 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero offs_zero]
  simp only [View.readAt_eq_ld, h1.read_unread, h2.read_unread, h3.read_unread,
    View.ld_unit_zero (S := S4096x2) offs_zero, View.ld_unit_zero (S := S1x4) offs_zero]

/-- The first point: the zero row is stored, read back, and the payload over it is left. -/
theorem first_value (c : Dev nD) (i : grid0.Coords) (a1 : Memref sig .tc .vmem S4096x2 .f32) (h1 : a1.IsWhole)
    (a2 : Memref sig .tc .vmem S4096x2 .f32) (h2 : a2.IsWhole) (a3 : Memref sig .tc .vmem S1x4 .f32) (h3 : a3.IsWhole)
    (hc : cond0_0 i) (x0 x1 : Vec F S4096x2 .f32) :
    out0_A_2 c i a1 h1 a2 h2 a3 h3 hc x0 x1 = k0_pay2 x0 x1 k0_pay1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x4) offs_zero, View.readCov_unit_zero (S := S1x4) _ offs_zero]
  simp only [View.readAt_eq_ld, h1.read_unread, h2.read_unread,
    View.ld_unit_zero (S := S4096x2) offs_zero, View.ld_unit_zero (S := S1x4) offs_zero]

end Cases

/-! ## The payload at an index, over the extended reals -/

/-- The 4096 × 4 block `[x₂ | x₂ − x₁]` of two 4096 × 2 blocks. -/
abbrev blockStates (x1 x2 : FVec Ideal ⟨2, ![4096, 2]⟩ .f32) : FVec Ideal ⟨2, ![4096, 4]⟩ .f32 :=
  concatenate ⟨2, ![4096, 4]⟩ 1 [⟨⟨2, ![4096, 2]⟩, x2⟩, ⟨⟨2, ![4096, 2]⟩, subf x2 x1⟩] concatenates_S4096x2_S4096x2_S4096x4_d1

/-- The sum over the rows of a 4096 × 4 block (an add-reduction along axis 0 from the zero word), at column `d`:
    the source index over column `d` with row `r` put back on the reduced axis is `(r, d)`. -/
theorem colSum_apply (v : FVec Ideal ⟨2, ![4096, 4]⟩ .f32) (h : Shape.Reduces ⟨2, ![4096, 4]⟩ [0] ⟨1, ![4]⟩)
    (hφ : FKind.Formats .f32) (hacc : (0x00000000#32 : BitVec 32) = 0x00000000#32) (d : Fin 4) :
    multiReduction .add [0] ⟨1, ![4]⟩ v 0x00000000#32 h hφ hacc (ix1 d) = ∑ r : Fin 4096, v (ix2 r d) := by
  refine (Ideal.multiReduction_add_single v 0x00000000#32 h hφ hacc (ix1 d)).trans ?_
  refine Finset.sum_congr rfl fun r _ => congrArg v ?_
  funext a
  match a with
  | ⟨0, _⟩ => exact Fin.ext rfl
  | ⟨1, _⟩ => exact Fin.ext rfl

/-- The payload at column `j` of its one row: what the block held there plus column `j`'s sum over the 4096 rows of
    the block of states. -/
theorem pay_apply_col (x1 x2 : FVec Ideal ⟨2, ![4096, 2]⟩ .f32) (xo : FVec Ideal ⟨2, ![1, 4]⟩ .f32) (j : Fin 4) :
    k0_pay2 (F := Ideal) x1 x2 xo (ix2 (0 : Fin 1) j)
      = xo (ix2 (0 : Fin 1) j) + ∑ r : Fin 4096, blockStates x1 x2 (ix2 r j) := by
  unfold k0_pay2
  refine (addf_apply _ _ _).trans ?_
  refine congrArg₂ (· + ·) ?_ ?_
  · exact congrFun (shapeCast_self xo shapeCasts_S1x4_S1x4) _
  · refine (shapeCast_a_1a_apply _ shapeCasts_S4_S1x4 0 j).trans ?_
    exact colSum_apply _ _ _ _ j

/-- Every index of a one-row array is `(0, j)`. -/
theorem eq_row_zero (i : (⟨2, ![1, 4]⟩ : Shape).Idx) : i = ix2 (0 : Fin 1) (i 1) := by
  funext a
  match a with
  | ⟨0, _⟩ => exact Subsingleton.elim (α := Fin 1) _ _
  | ⟨1, _⟩ => rfl

/-- The payload at any index of its one row. -/
theorem pay_apply (x1 x2 : FVec Ideal ⟨2, ![4096, 2]⟩ .f32) (xo : FVec Ideal ⟨2, ![1, 4]⟩ .f32)
    (i : (⟨2, ![1, 4]⟩ : Shape).Idx) :
    k0_pay2 (F := Ideal) x1 x2 xo i = xo i + ∑ r : Fin 4096, blockStates x1 x2 (ix2 r (i 1)) := by
  have hi := eq_row_zero i
  exact (congrArg (k0_pay2 (F := Ideal) x1 x2 xo) hi).trans
    ((pay_apply_col x1 x2 xo (i 1)).trans
      (congrArg (fun k => xo k + ∑ r : Fin 4096, blockStates x1 x2 (ix2 r (i 1))) hi.symm))

/-- The row the first point stores is zero everywhere. -/
theorem zero_row_apply (i : (⟨2, ![1, 4]⟩ : Shape).Idx) : (k0_pay1 (F := Ideal)) i = 0 := by
  show Ideal.ofBits .f32 0x00000000#32 = 0
  exact Ideal.ofBits_zero_f32

/-! ## The 32 points: the result block after the last one -/

/-- The two position blocks of point `t`: 4096 rows of two columns each. -/
abbrev blk1 (c : Dev nD) (t : Fin cfg0.N) : FVec Ideal ⟨2, ![4096, 2]⟩ .f32 := iblk0 V c 0 t
abbrev blk2 (c : Dev nD) (t : Fin cfg0.N) : FVec Ideal ⟨2, ![4096, 2]⟩ .f32 := iblk0 V c 1 t

/-- What point `n` adds at an index: that column's sum over the rows of the point's block of states (zero past the
    grid, where nothing is ever read). -/
def addend (c : Dev nD) (n : ℕ) (i : (⟨2, ![1, 4]⟩ : Shape).Idx) : EReal :=
  if h : n < cfg0.N then ∑ r : Fin 4096, blockStates (blk1 V c ⟨n, h⟩) (blk2 V c ⟨n, h⟩) (ix2 r (i 1)) else 0

theorem addend_of_lt (c : Dev nD) (n : ℕ) (h : n < cfg0.N) (i : (⟨2, ![1, 4]⟩ : Shape).Idx) :
    addend V c n i = ∑ r : Fin 4096, blockStates (blk1 V c ⟨n, h⟩) (blk2 V c ⟨n, h⟩) (ix2 r (i 1)) := dif_pos h

/-- The block after the first point of a run. -/
abbrev resetAt (c : Dev nD) (n : ℕ) (h : n < cfg0.N) : FVec Ideal ⟨2, ![1, 4]⟩ .f32 :=
  k0_pay2 (F := Ideal) (blk1 V c ⟨n, h⟩) (blk2 V c ⟨n, h⟩) (k0_pay1 (F := Ideal))

/-- The block after a later point, from what the point before left. -/
abbrev stepAt (c : Dev nD) (n : ℕ) (h : n < cfg0.N) (acc : FVec Ideal ⟨2, ![1, 4]⟩ .f32) : FVec Ideal ⟨2, ![1, 4]⟩ .f32 :=
  k0_pay2 (F := Ideal) (blk1 V c ⟨n, h⟩) (blk2 V c ⟨n, h⟩) acc

/-- At the first point the block is the reset value. -/
theorem outs_first (c : Dev nD) (n : ℕ) (h : n < cfg0.N) (h0 : n % 32 = 0) : outsAt0 V c n h = resetAt V c n h :=
  (outsAt0_A V c ⟨n, h⟩ h0).trans
    (first_value (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) ((hcond0_0 ⟨n, h⟩).mpr h0) (iblk0 V c 0 ⟨n, h⟩) (iblk0 V c 1 ⟨n, h⟩))

/-- At a later point the block is the step over what the point before left. -/
theorem outs_later (c : Dev nD) (n : ℕ) (h : n + 1 < cfg0.N) (h0 : ¬(n + 1) % 32 = 0) :
    outsAt0 V c (n + 1) h = stepAt V c (n + 1) h (outsAt0 V c n (Nat.lt_of_succ_lt h)) :=
  (outsAt0_B V c ⟨n + 1, h⟩ h0).trans
    (later_value (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => h0 ((hcond0_0 ⟨n + 1, h⟩).mp hh))
      (iblk0 V c 0 ⟨n + 1, h⟩) (iblk0 V c 1 ⟨n + 1, h⟩) (outsAt0 V c n (Nat.lt_of_succ_lt h)))

/-- After the last point the block holds, at every index, the sum of the 32 points' addends. -/
theorem outs_last (c : Dev nD) (h : 31 < cfg0.N) (i : (⟨2, ![1, 4]⟩ : Shape).Idx) :
    outsAt0 V c 31 h i = ∑ s ∈ Finset.range 32, addend V c s i := by
  have hfold : outsAt0 V c 31 h = Pipeline.accAt (resetAt V c) (stepAt V c) 0 31 h :=
    Pipeline.eq_accAt_of_mod (N := cfg0.N) (outsAt0 V c) 32 (resetAt V c) (stepAt V c)
      (fun n hn h0 => outs_first V c n hn h0) (fun n hn h0 => outs_later V c n hn h0) (by norm_num) 31 h h
  have hsum := Pipeline.accAt_add_apply (N := cfg0.N) (resetAt V c) (stepAt V c)
    (fun i => (k0_pay1 (F := Ideal)) i) (addend V c) 0 31
    (fun hb i => by
      rw [addend_of_lt V c 0 hb i]
      exact pay_apply (blk1 V c ⟨0, hb⟩) (blk2 V c ⟨0, hb⟩) (k0_pay1 (F := Ideal)) i)
    (fun n hn acc i _ _ => by
      rw [addend_of_lt V c n hn i]
      exact pay_apply (blk1 V c ⟨n, hn⟩) (blk2 V c ⟨n, hn⟩) acc i)
    31 le_rfl h i
  rw [hfold, hsum, zero_row_apply, zero_add]
  exact Finset.sum_congr rfl fun s _ => by rw [Nat.zero_add]

/-! ## A point's blocks are row blocks of the arrays -/

/-- The two position arrays: 131072 rows of two columns each. -/
abbrev arr1 (c : Dev nD) : FVec Ideal ⟨2, ![131072, 2]⟩ .f32 := V c main_arg0
abbrev arr2 (c : Dev nD) : FVec Ideal ⟨2, ![131072, 2]⟩ .f32 := V c main_arg1

/-- Point `t`'s block of either array is block row `t`, all columns. -/
theorem win_index : ∀ t : Fin cfg0.N,
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0))

/-- Point `t`'s block of the first array is its rows `4096 t … 4096 t + 4095`. -/
theorem blk1_rows (c : Dev nD) (t : Fin cfg0.N) : Cert.RowBlock.IsRows 4096 t.val (arr1 V c) (blk1 V c t) := by
  intro p j r hr
  obtain ⟨⟨e0, e1⟩, -⟩ := win_index t
  show iblk0 V c 0 t (ix2 p j) = V c main_arg0 (ix2 r j)
  unfold iblk0
  rw [View.read_apply]
  show V c main_arg0 (((cfg0.win 0).blk t).view.emb (ix2 p j)) = V c main_arg0 (ix2 r j)
  refine congrArg (V c main_arg0) ?_
  funext a
  apply Fin.ext
  match a with
  | ⟨0, _⟩ => show win0_0.index t 0 * 4096 + 1 * p.val = r.val; rw [e0, hr]; omega
  | ⟨1, _⟩ => show win0_0.index t 1 * 2 + 1 * j.val = j.val; rw [e1]; omega

/-- Point `t`'s block of the second array is its rows `4096 t … 4096 t + 4095`. -/
theorem blk2_rows (c : Dev nD) (t : Fin cfg0.N) : Cert.RowBlock.IsRows 4096 t.val (arr2 V c) (blk2 V c t) := by
  intro p j r hr
  obtain ⟨-, ⟨e0, e1⟩⟩ := win_index t
  show iblk0 V c 1 t (ix2 p j) = V c main_arg1 (ix2 r j)
  unfold iblk0
  rw [View.read_apply]
  show V c main_arg1 (((cfg0.win 1).blk t).view.emb (ix2 p j)) = V c main_arg1 (ix2 r j)
  refine congrArg (V c main_arg1) ?_
  funext a
  apply Fin.ext
  match a with
  | ⟨0, _⟩ => show win0_1.index t 0 * 4096 + 1 * p.val = r.val; rw [e0, hr]; omega
  | ⟨1, _⟩ => show win0_1.index t 1 * 2 + 1 * j.val = j.val; rw [e1]; omega

/-- So a point's block of states is the same rows of the array of states. -/
theorem states_rows (c : Dev nD) (t : Fin cfg0.N) :
    Cert.RowBlock.IsRows 4096 t.val (Cert.Spec.states (F := Ideal) (arr1 V c) (arr2 V c))
      (blockStates (blk1 V c t) (blk2 V c t)) :=
  Cert.RowBlock.IsRows.concat2 (blk2_rows V c t) (Cert.RowBlock.IsRows.sub (blk2_rows V c t) (blk1_rows V c t)) rfl
    Cert.ReferenceIdeal.Gen.concatenates_S131072x2_S131072x2_S131072x4_d1 concatenates_S4096x2_S4096x2_S4096x4_d1

/-! ## The block after the last point is the reference's row -/

theorem rows_split : 32 * 4096 = 131072 := by norm_num

/-- Column `j` after the last point: the sum over all 131072 rows of the array of states. -/
theorem outs_last_col (c : Dev nD) (h : 31 < cfg0.N) (j : Fin 4) :
    outsAt0 V c 31 h (ix2 (0 : Fin 1) j)
      = ∑ n : Fin 131072, Cert.Spec.states (F := Ideal) (arr1 V c) (arr2 V c) (ix2 n j) := by
  have hN : cfg0.N = 32 := N_0
  refine (outs_last V c h (ix2 (0 : Fin 1) j)).trans ?_
  refine Cert.BlockSum.sum_range_blocks rows_split
    (fun n : Fin 131072 => Cert.Spec.states (F := Ideal) (arr1 V c) (arr2 V c) (ix2 n j))
    (fun s => addend V c s (ix2 (0 : Fin 1) j)) fun t => ?_
  have ht : t.val < cfg0.N := by rw [hN]; exact t.isLt
  refine (addend_of_lt V c t.val ht (ix2 (0 : Fin 1) j)).trans ?_
  exact Finset.sum_congr rfl fun r _ =>
    states_rows V c ⟨t.val, ht⟩ r j (Cert.BlockSum.row rows_split t r) rfl

/-- The block after the last point is the row of column sums. -/
theorem outs_last_eq (c : Dev nD) (h : 31 < cfg0.N) :
    outsAt0 V c 31 h = Cert.Spec.totalRow (F := Ideal) (arr1 V c) (arr2 V c) := by
  funext i
  obtain ⟨j, rfl⟩ : ∃ j : Fin 4, i = ix2 (0 : Fin 1) j := ⟨i 1, eq_row_zero i⟩
  exact (outs_last_col V c h j).trans
    ((Cert.Hand.TotalRef.totalRow_apply (arr1 V c) (arr2 V c) j).trans (zero_add _)).symm

/-! ## The one write-back -/

/-- The result block's index never moves, and the block is the whole `[1, 4]` array. -/
theorem out_index : ∀ t : Fin cfg0.N,
    (win0_2.index t 0 = 0 ∧ win0_2.index t 1 = 0)
      ∧ (win0_2.xsize (grid0.coords t) 0 = 1 ∧ win0_2.xsize (grid0.coords t) 1 = 4) :=
  (by decide +kernel : ∀ t : Fin grid0.N,
    (win0_2.index t 0 = 0 ∧ win0_2.index t 1 = 0)
      ∧ (win0_2.xsize (grid0.coords t) 0 = 1 ∧ win0_2.xsize (grid0.coords t) 1 = 4))

/-- After the first kernel's 32 grid points its result array holds the column sums of `[o₂ | o₂ − o₁]` over all
    131072 rows, as one row. -/
theorem arr_total (c : Dev nD) :
    (dat0 V c).arrAt 2 cfg0.N
      = (Cert.Spec.totalRow (F := Ideal) (V c main_arg0) (V c main_arg1) : Buf (Elt Ideal) ((c : Thread nD τ).loc main_v0)) := by
  have hN : cfg0.N = 32 := N_0
  have hlast : 31 < cfg0.N := by omega
  obtain ⟨⟨i0, i1⟩, ⟨s0, s1⟩⟩ := out_index ⟨31, hlast⟩
  refine (dat0 V c).arrAt_eq_of_cover 2 _ (fun t hf => ?_) (fun i => ?_)
  · -- the only point that writes back is the last one, and its block is the whole array
    have h31 : t.val = 31 := by have := (flush0_2 t).mp hf; have := t.isLt; omega
    obtain rfl : t = ⟨31, hlast⟩ := Fin.ext h31
    show (cfg0.win 2).cut (grid0.coords ⟨31, hlast⟩) ((dat0 V c).after 2 ⟨31, hlast⟩) = _
    rw [after0_2]
    show (cfg0.win 2).cut (grid0.coords ⟨31, hlast⟩) (outsAt0 V c 31 hlast) = _
    rw [outs_last_eq V c hlast]
    have hz' : (fun a => win0_2.index ⟨31, hlast⟩ a * main_v0.ty.shape.size a) = fun _ => 0 :=
      funext fun a => by
        match a with
        | ⟨0, _⟩ => show win0_2.index ⟨31, hlast⟩ 0 * 1 = 0; rw [i0]
        | ⟨1, _⟩ => show win0_2.index ⟨31, hlast⟩ 1 * 4 = 0; rw [i1]
    exact (Memref.read_access_unit_zero (Elt Ideal) main_v0 hz' (fun a => by rw [congrFun hz' a]; simp)
      (Cert.Spec.totalRow (F := Ideal) (V c main_arg0) (V c main_arg1))).symm
  · refine ⟨⟨31, hlast⟩, (flush0_2 ⟨31, hlast⟩).mpr rfl, ?_⟩
    show i ∈ ((View.whole main_v0).slice (win0_2.rect ⟨31, hlast⟩)).set
    rw [View.set_slice_whole, Rect.mem_set_unit]
    intro a
    have h0 : (i 0 : Nat) < 1 := (i 0).isLt
    have h1 : (i 1 : Nat) < 4 := (i 1).isLt
    match a with
    | ⟨0, _⟩ =>
      show win0_2.index ⟨31, hlast⟩ 0 * win0_2.size 0 ≤ (i 0 : Nat)
        ∧ (i 0 : Nat) < win0_2.index ⟨31, hlast⟩ 0 * win0_2.size 0 + win0_2.xsize (grid0.coords ⟨31, hlast⟩) 0
      rw [i0, s0]; omega
    | ⟨1, _⟩ =>
      show win0_2.index ⟨31, hlast⟩ 1 * win0_2.size 1 ≤ (i 1 : Nat)
        ∧ (i 1 : Nat) < win0_2.index ⟨31, hlast⟩ 1 * win0_2.size 1 + win0_2.xsize (grid0.coords ⟨31, hlast⟩) 1
      rw [i1, s1]; omega

end Cert.Hand.Total

end
-- ==== Proof.Rows.lean ====
/-
  The second kernel's body on a block of 1024 rows is the staged computation restricted to those rows.

  Every stage after the total treats rows independently: row r of states, grid, x, gates, c₁, h₁ and out depends
  on row r of o₁, o₂, h₀, c₀ only (and on the total row and the weights, which are the same for every row). So if
  the body's four streamed input blocks are rows 1024·t … 1024·t + 1023 of the four arrays, and its other inputs
  are the total row, the transposed weights and the biases themselves, what the body stores is rows
  1024·t … 1024·t + 1023 of the staged computation's result. The kernel's narrowing of matrix-product operands to
  bf16 is the identity on extended reals, and its one-operation logistic is the quotient 1 / (1 + e⁻ᶻ).
-/
import proofs.«122400_j46634754900237_1_alg».proof.Proof.Spec
import proofs.«122400_j46634754900237_1_alg».proof.Proof.LibRowBlock
import proofs.«122400_j46634754900237_1_alg».proof.Proof.Gen.KernelIdeal.Skeleton

noncomputable section

namespace Cert.Hand.Rows

open Idealize.ShloMosaic Idealize.ShloMosaic.ValueIdx Cert.RowBlock

/-- One row `[1, n]` repeated over all rows: its row block is the same row repeated over the block's rows. -/
theorem rowRepeat {α : Type} {N B n t : Nat} (T : (⟨2, ![1, n]⟩ : Shape).Idx → α)
    (h2 : (⟨2, ![1, n]⟩ : Shape).BroadcastsInDim ⟨2, ![N, n]⟩ ![0, 1])
    (hc : (⟨2, ![1, n]⟩ : Shape).ShapeCasts ⟨2, ![1, n]⟩) (hb : (⟨2, ![1, n]⟩ : Shape).Broadcasts ⟨2, ![B, n]⟩) :
    IsRows B t (broadcastInDim ⟨2, ![N, n]⟩ ![0, 1] h2 T) (broadcastTo ⟨2, ![B, n]⟩ (shapeCast ⟨2, ![1, n]⟩ T hc) hb) := by
  intro p j r _
  rw [broadcastTo_1b_ab_apply, shapeCast_self]
  refine Eq.symm (broadcastInDim_apply ![0, 1] h2 T (ix2 r j) (ix2 (0 : Fin 1) j) fun a => ?_)
  match a with
  | ⟨0, _⟩ => rfl
  | ⟨1, _⟩ =>
    show j.val = if n = 1 then 0 else j.val
    split
    · have := j.isLt; omega
    · rfl

/-- A matrix held whole, cast to its own shape and narrowed, reads as itself. -/
theorem whole_operand {K M : Nat} {ψ : FTy} (R : FVec Ideal ⟨2, ![K, M]⟩ .f32) (hc : (⟨2, ![K, M]⟩ : Shape).ShapeCasts ⟨2, ![K, M]⟩)
    (hb : ψ.bits < FTy.f32.bits) (k : Fin K) (j : Fin M) :
    truncf ψ (shapeCast ⟨2, ![K, M]⟩ R hc) hb (ix2 k j) = R (ix2 k j) := by
  rw [shapeCast_self]; rfl

open Cert.KernelIdeal Cert.KernelIdeal.Gen in
/-- The body's stored value on row block `t` is row block `t` of the staged computation. -/
theorem body_rows (t : Nat)
    (O1 O2 : FVec Ideal ⟨2, ![131072, 2]⟩ .f32) (H0 C0 : FVec Ideal ⟨2, ![131072, 256]⟩ .f32)
    (x0 x1 : FVec Ideal ⟨2, ![1024, 2]⟩ .f32) (x2 x3 : FVec Ideal ⟨2, ![1024, 256]⟩ .f32)
    (T : FVec Ideal ⟨2, ![1, 4]⟩ .f32) (We : FVec Ideal ⟨2, ![8, 32]⟩ .f32) (be : FVec Ideal ⟨1, ![32]⟩ .f32)
    (Wi : FVec Ideal ⟨2, ![32, 1024]⟩ .f32) (bi : FVec Ideal ⟨1, ![1024]⟩ .f32)
    (Wh : FVec Ideal ⟨2, ![256, 1024]⟩ .f32) (bh : FVec Ideal ⟨1, ![1024]⟩ .f32)
    (Wp : FVec Ideal ⟨2, ![256, 32]⟩ .f32) (bp : FVec Ideal ⟨1, ![32]⟩ .f32)
    (h0 : IsRows 1024 t O1 x0) (h1 : IsRows 1024 t O2 x1) (h2 : IsRows 1024 t H0 x2) (h3 : IsRows 1024 t C0 x3) :
    IsRows 1024 t (Cert.Spec.whole (F := Ideal) O1 O2 H0 C0 T We be Wi bi Wh bh Wp bp)
      (k1_pay1 (F := Ideal) x3 (k1_pay2 (F := Ideal) x0 x1 T We be x2 Wi bi Wh) bh Wp bp) := by
  -- states, the repeated total row, the grid
  have hS := IsRows.concat2 (n := 4) h1 (IsRows.sub h1 h0) rfl (by decide) (by decide)
  have hT := rowRepeat (N := 131072) (B := 1024) (t := t) T (by decide) (by decide) (by decide)
  have hG := IsRows.concat2 (n := 8) hS (IsRows.sub hT hS) rfl (by decide) (by decide)
  -- the embedding
  have hx := IsRows.maxf
    (IsRows.add
      (IsRows.dot (φ₁ := .bf16) (φ₂ := .bf16) (IsRows.trunc (ψ := .bf16) hG (by decide))
        Cert.ReferenceIdeal.dot_S131072x8_S8x32_S131072x32_1_0_0_1_n_n dot_S1024x8_S8x32_S1024x32_1_0_0_1_n_n
        ⟨rfl, rfl, rfl, rfl, rfl, rfl⟩ ⟨rfl, rfl, rfl, rfl, rfl, rfl⟩ We
        (truncf .bf16 (shapeCast S8x32 We shapeCasts_S8x32_S8x32) bitsLt_bf16_f32) (whole_operand We _ _))
      (IsRows.bias (N := 131072) (B := 1024) (t := t) be (by decide) (by decide) (by decide) (by decide)))
    (IsRows.splat (N := 131072) (B := 1024) (t := t) (n := 32) .f32 0x00000000#32 (by decide))
  -- the gates before the last bias, then with it
  have hg36 := IsRows.add
    (IsRows.add
      (IsRows.dot (φ₁ := .bf16) (φ₂ := .bf16) (IsRows.trunc (ψ := .bf16) hx (by decide))
        Cert.ReferenceIdeal.dot_S131072x32_S32x1024_S131072x1024_1_0_0_1_n_n dot_S1024x32_S32x1024_S1024x1024_1_0_0_1_n_n
        ⟨rfl, rfl, rfl, rfl, rfl, rfl⟩ ⟨rfl, rfl, rfl, rfl, rfl, rfl⟩ Wi
        (truncf .bf16 (shapeCast S32x1024 Wi shapeCasts_S32x1024_S32x1024) bitsLt_bf16_f32) (whole_operand Wi _ _))
      (IsRows.bias (N := 131072) (B := 1024) (t := t) bi (by decide) (by decide) (by decide) (by decide)))
    (IsRows.dot (φ₁ := .bf16) (φ₂ := .bf16) (IsRows.trunc (ψ := .bf16) h2 (by decide))
      Cert.ReferenceIdeal.dot_S131072x256_S256x1024_S131072x1024_1_0_0_1_n_n dot_S1024x256_S256x1024_S1024x1024_1_0_0_1_n_n
      ⟨rfl, rfl, rfl, rfl, rfl, rfl⟩ ⟨rfl, rfl, rfl, rfl, rfl, rfl⟩ Wh
      (truncf .bf16 (shapeCast S256x1024 Wh shapeCasts_S256x1024_S256x1024) bitsLt_bf16_f32) (whole_operand Wh _ _))
  have hg := IsRows.add hg36 (IsRows.bias (N := 131072) (B := 1024) (t := t) bh (by decide) (by decide) (by decide) (by decide))
  -- the four column groups
  have hi := IsRows.slice hg 0 256 (by decide) (by decide)
  have hf := IsRows.slice hg 256 256 (by decide) (by decide)
  have hgg := IsRows.slice hg 512 256 (by decide) (by decide)
  have ho := IsRows.slice hg 768 256 (by decide) (by decide)
  -- the cell and hidden states
  have hc1 := IsRows.add (IsRows.mul (IsRows.sigmoid hf (by decide) (by decide)) h3)
    (IsRows.mul (IsRows.sigmoid hi (by decide) (by decide)) (IsRows.tanhf hgg))
  have hh1 := IsRows.mul (IsRows.sigmoid ho (by decide) (by decide)) (IsRows.tanhf hc1)
  -- the projection
  exact IsRows.add
    (IsRows.dot (φ₁ := .bf16) (φ₂ := .bf16) (IsRows.trunc (ψ := .bf16) hh1 (by decide))
      Cert.ReferenceIdeal.dot_S131072x256_S256x32_S131072x32_1_0_0_1_n_n dot_S1024x256_S256x32_S1024x32_1_0_0_1_n_n
      ⟨rfl, rfl, rfl, rfl, rfl, rfl⟩ ⟨rfl, rfl, rfl, rfl, rfl, rfl⟩ Wp
      (truncf .bf16 (shapeCast S256x32 Wp shapeCasts_S256x32_S256x32) bitsLt_bf16_f32) (whole_operand Wp _ _))
    (IsRows.bias (N := 131072) (B := 1024) (t := t) bp (by decide) (by decide) (by decide) (by decide))

open Cert.KernelIdeal Cert.KernelIdeal.Gen in
/-- The same with the body's nine whole inputs named apart from the arrays they hold. -/
theorem body_rows_of (t : Nat)
    (O1 O2 : FVec Ideal ⟨2, ![131072, 2]⟩ .f32) (H0 C0 : FVec Ideal ⟨2, ![131072, 256]⟩ .f32)
    (T : FVec Ideal ⟨2, ![1, 4]⟩ .f32) (We : FVec Ideal ⟨2, ![8, 32]⟩ .f32) (be : FVec Ideal ⟨1, ![32]⟩ .f32)
    (Wi : FVec Ideal ⟨2, ![32, 1024]⟩ .f32) (bi : FVec Ideal ⟨1, ![1024]⟩ .f32)
    (Wh : FVec Ideal ⟨2, ![256, 1024]⟩ .f32) (bh : FVec Ideal ⟨1, ![1024]⟩ .f32)
    (Wp : FVec Ideal ⟨2, ![256, 32]⟩ .f32) (bp : FVec Ideal ⟨1, ![32]⟩ .f32)
    (x0 x1 : FVec Ideal ⟨2, ![1024, 2]⟩ .f32) (x2 x3 : FVec Ideal ⟨2, ![1024, 256]⟩ .f32)
    (x4 : FVec Ideal ⟨2, ![1, 4]⟩ .f32) (x5 : FVec Ideal ⟨2, ![8, 32]⟩ .f32) (x6 : FVec Ideal ⟨1, ![32]⟩ .f32)
    (x7 : FVec Ideal ⟨2, ![32, 1024]⟩ .f32) (x8 : FVec Ideal ⟨1, ![1024]⟩ .f32)
    (x9 : FVec Ideal ⟨2, ![256, 1024]⟩ .f32) (x10 : FVec Ideal ⟨1, ![1024]⟩ .f32)
    (x11 : FVec Ideal ⟨2, ![256, 32]⟩ .f32) (x12 : FVec Ideal ⟨1, ![32]⟩ .f32)
    (h0 : IsRows 1024 t O1 x0) (h1 : IsRows 1024 t O2 x1) (h2 : IsRows 1024 t H0 x2) (h3 : IsRows 1024 t C0 x3)
    (h4 : x4 = T) (h5 : x5 = We) (h6 : x6 = be) (h7 : x7 = Wi) (h8 : x8 = bi) (h9 : x9 = Wh) (h10 : x10 = bh)
    (h11 : x11 = Wp) (h12 : x12 = bp) :
    IsRows 1024 t (Cert.Spec.whole (F := Ideal) O1 O2 H0 C0 T We be Wi bi Wh bh Wp bp)
      (k1_pay1 (F := Ideal) x3 (k1_pay2 (F := Ideal) x0 x1 x4 x5 x6 x2 x7 x8 x9) x10 x11 x12) := by
  subst h4 h5 h6 h7 h8 h9 h10 h11 h12
  exact body_rows t O1 O2 H0 C0 x0 x1 x2 x3 x4 x5 x6 x7 x8 x9 x10 x11 x12 h0 h1 h2 h3

end Cert.Hand.Rows

end
-- ==== Proof.Blocks.lean ====
/-
  The second kernel's result array: the staged computation of the arrays the kernel finds.

  The grid has 128 points. At point t the four streamed windows hold rows 1024·t … 1024·t + 1023 of their arrays,
  the other nine windows hold their arrays whole, and the output window's block is rows 1024·t … 1024·t + 1023 of
  the result array, written back at every point. The body's stored value on those inputs is the same rows of the
  staged computation; the 128 blocks tile the 131072 rows (row r lies in block r / 1024); so after the run the
  result array is the staged computation.
-/
import proofs.«122400_j46634754900237_1_alg».proof.Proof.Spec
import proofs.«122400_j46634754900237_1_alg».proof.Proof.Rows
import proofs.«122400_j46634754900237_1_alg».proof.Proof.Gen.KernelIdeal.Frame
import Idealize.ShloMosaic.Lib.Pipeline.Value
import Idealize.ShloMosaic.Lib.Tactic

noncomputable section

namespace Cert.Hand.Blocks

open Idealize.ShloMosaic Idealize.ShloMosaic.TcCoe Idealize.SL.Sem Idealize.ShloMosaic.ValueIdx
open Idealize.ShloMosaic.Pipeline (Dat)
open Cert.KernelIdeal Cert.KernelIdeal.Gen Cert.RowBlock

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps of the four streamed windows and of the output window: block t along the rows, block 0 along
    the columns, at every grid point. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_13.index t (0 : Fin 2) = t.val ∧ win1_13.index t (1 : Fin 2) = 0 :=
  (by decide +kernel : ∀ t : Fin grid1.N, _)

/-- The index maps of the nine windows held whole: block 0 on every axis, at every grid point. -/
theorem idx_whole : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = 0
    ∧ win1_10.index t (0 : Fin 1) = 0
    ∧ win1_11.index t (0 : Fin 2) = 0 ∧ win1_11.index t (1 : Fin 2) = 0
    ∧ win1_12.index t (0 : Fin 1) = 0 :=
  (by decide +kernel : ∀ t : Fin grid1.N, _)

/-- The block of streamed array 0 at point `t` is rows 1024·t … 1024·t + 1023 of the array. -/
theorem rows0 (c : Dev nD) (t : Fin cfg1.N) : IsRows 1024 t.val (V c main_arg0) (iblk1 V c 0 t) := by
  intro p j r hr
  have e := idx_rows t
  unfold iblk1
  rw [View.read_apply]
  show V c main_arg0 (((cfg1.win 0).blk t).view.emb (ix2 p j)) = V c main_arg0 (ix2 r j)
  refine congrArg (V c main_arg0) (funext fun a => Fin.ext ?_)
  match a with
  | ⟨0, _⟩ => show win1_0.index t (0 : Fin 2) * 1024 + 1 * p.val = r.val; omega
  | ⟨1, _⟩ => show win1_0.index t (1 : Fin 2) * 2 + 1 * j.val = j.val; omega

/-- The block of streamed array 1 at point `t` is rows 1024·t … 1024·t + 1023 of the array. -/
theorem rows1 (c : Dev nD) (t : Fin cfg1.N) : IsRows 1024 t.val (V c main_arg1) (iblk1 V c 1 t) := by
  intro p j r hr
  have e := idx_rows t
  unfold iblk1
  rw [View.read_apply]
  show V c main_arg1 (((cfg1.win 1).blk t).view.emb (ix2 p j)) = V c main_arg1 (ix2 r j)
  refine congrArg (V c main_arg1) (funext fun a => Fin.ext ?_)
  match a with
  | ⟨0, _⟩ => show win1_1.index t (0 : Fin 2) * 1024 + 1 * p.val = r.val; omega
  | ⟨1, _⟩ => show win1_1.index t (1 : Fin 2) * 2 + 1 * j.val = j.val; omega

/-- The block of streamed array 2 at point `t` is rows 1024·t … 1024·t + 1023 of the array. -/
theorem rows2 (c : Dev nD) (t : Fin cfg1.N) : IsRows 1024 t.val (V c main_arg2) (iblk1 V c 2 t) := by
  intro p j r hr
  have e := idx_rows t
  unfold iblk1
  rw [View.read_apply]
  show V c main_arg2 (((cfg1.win 2).blk t).view.emb (ix2 p j)) = V c main_arg2 (ix2 r j)
  refine congrArg (V c main_arg2) (funext fun a => Fin.ext ?_)
  match a with
  | ⟨0, _⟩ => show win1_2.index t (0 : Fin 2) * 1024 + 1 * p.val = r.val; omega
  | ⟨1, _⟩ => show win1_2.index t (1 : Fin 2) * 256 + 1 * j.val = j.val; omega

/-- The block of streamed array 3 at point `t` is rows 1024·t … 1024·t + 1023 of the array. -/
theorem rows3 (c : Dev nD) (t : Fin cfg1.N) : IsRows 1024 t.val (V c main_arg3) (iblk1 V c 3 t) := by
  intro p j r hr
  have e := idx_rows t
  unfold iblk1
  rw [View.read_apply]
  show V c main_arg3 (((cfg1.win 3).blk t).view.emb (ix2 p j)) = V c main_arg3 (ix2 r j)
  refine congrArg (V c main_arg3) (funext fun a => Fin.ext ?_)
  match a with
  | ⟨0, _⟩ => show win1_3.index t (0 : Fin 2) * 1024 + 1 * p.val = r.val; omega
  | ⟨1, _⟩ => show win1_3.index t (1 : Fin 2) * 256 + 1 * j.val = j.val; omega

/-- Window 4's block is the whole array at every point. -/
theorem whole4 (c : Dev nD) (t : Fin cfg1.N) : (iblk1 V c 4 t : Vec Ideal S1x4 .f32) = V c main_v0 := by
  funext y
  have e := idx_whole t
  unfold iblk1
  rw [View.read_apply]
  show V c main_v0 (((cfg1.win 4).blk t).view.emb y) = V c main_v0 y
  refine congrArg (V c main_v0) (funext fun a => Fin.ext ?_)
  match a with
  | ⟨0, _⟩ => show win1_4.index t (0 : Fin 2) * 1 + 1 * (y 0).val = (y 0).val; omega
  | ⟨1, _⟩ => show win1_4.index t (1 : Fin 2) * 4 + 1 * (y 1).val = (y 1).val; omega

/-- Window 5's block is the whole array at every point. -/
theorem whole5 (c : Dev nD) (t : Fin cfg1.N) : (iblk1 V c 5 t : Vec Ideal S8x32 .f32) = V c main_v1 := by
  funext y
  have e := idx_whole t
  unfold iblk1
  rw [View.read_apply]
  show V c main_v1 (((cfg1.win 5).blk t).view.emb y) = V c main_v1 y
  refine congrArg (V c main_v1) (funext fun a => Fin.ext ?_)
  match a with
  | ⟨0, _⟩ => show win1_5.index t (0 : Fin 2) * 8 + 1 * (y 0).val = (y 0).val; omega
  | ⟨1, _⟩ => show win1_5.index t (1 : Fin 2) * 32 + 1 * (y 1).val = (y 1).val; omega

/-- Window 6's block is the whole vector at every point. -/
theorem whole6 (c : Dev nD) (t : Fin cfg1.N) : (iblk1 V c 6 t : Vec Ideal S32 .f32) = V c main_arg5 := by
  funext y
  have e := idx_whole t
  unfold iblk1
  rw [View.read_apply]
  show V c main_arg5 (((cfg1.win 6).blk t).view.emb y) = V c main_arg5 y
  refine congrArg (V c main_arg5) (funext fun a => Fin.ext ?_)
  match a with
  | ⟨0, _⟩ => show win1_6.index t (0 : Fin 1) * 32 + 1 * (y 0).val = (y 0).val; omega

/-- Window 7's block is the whole array at every point. -/
theorem whole7 (c : Dev nD) (t : Fin cfg1.N) : (iblk1 V c 7 t : Vec Ideal S32x1024 .f32) = V c main_v2 := by
  funext y
  have e := idx_whole t
  unfold iblk1
  rw [View.read_apply]
  show V c main_v2 (((cfg1.win 7).blk t).view.emb y) = V c main_v2 y
  refine congrArg (V c main_v2) (funext fun a => Fin.ext ?_)
  match a with
  | ⟨0, _⟩ => show win1_7.index t (0 : Fin 2) * 32 + 1 * (y 0).val = (y 0).val; omega
  | ⟨1, _⟩ => show win1_7.index t (1 : Fin 2) * 1024 + 1 * (y 1).val = (y 1).val; omega

/-- Window 8's block is the whole vector at every point. -/
theorem whole8 (c : Dev nD) (t : Fin cfg1.N) : (iblk1 V c 8 t : Vec Ideal S1024 .f32) = V c main_arg7 := by
  funext y
  have e := idx_whole t
  unfold iblk1
  rw [View.read_apply]
  show V c main_arg7 (((cfg1.win 8).blk t).view.emb y) = V c main_arg7 y
  refine congrArg (V c main_arg7) (funext fun a => Fin.ext ?_)
  match a with
  | ⟨0, _⟩ => show win1_8.index t (0 : Fin 1) * 1024 + 1 * (y 0).val = (y 0).val; omega

/-- Window 9's block is the whole array at every point. -/
theorem whole9 (c : Dev nD) (t : Fin cfg1.N) : (iblk1 V c 9 t : Vec Ideal S256x1024 .f32) = V c main_v3 := by
  funext y
  have e := idx_whole t
  unfold iblk1
  rw [View.read_apply]
  show V c main_v3 (((cfg1.win 9).blk t).view.emb y) = V c main_v3 y
  refine congrArg (V c main_v3) (funext fun a => Fin.ext ?_)
  match a with
  | ⟨0, _⟩ => show win1_9.index t (0 : Fin 2) * 256 + 1 * (y 0).val = (y 0).val; omega
  | ⟨1, _⟩ => show win1_9.index t (1 : Fin 2) * 1024 + 1 * (y 1).val = (y 1).val; omega

/-- Window 10's block is the whole vector at every point. -/
theorem whole10 (c : Dev nD) (t : Fin cfg1.N) : (iblk1 V c 10 t : Vec Ideal S1024 .f32) = V c main_arg9 := by
  funext y
  have e := idx_whole t
  unfold iblk1
  rw [View.read_apply]
  show V c main_arg9 (((cfg1.win 10).blk t).view.emb y) = V c main_arg9 y
  refine congrArg (V c main_arg9) (funext fun a => Fin.ext ?_)
  match a with
  | ⟨0, _⟩ => show win1_10.index t (0 : Fin 1) * 1024 + 1 * (y 0).val = (y 0).val; omega

/-- Window 11's block is the whole array at every point. -/
theorem whole11 (c : Dev nD) (t : Fin cfg1.N) : (iblk1 V c 11 t : Vec Ideal S256x32 .f32) = V c main_v4 := by
  funext y
  have e := idx_whole t
  unfold iblk1
  rw [View.read_apply]
  show V c main_v4 (((cfg1.win 11).blk t).view.emb y) = V c main_v4 y
  refine congrArg (V c main_v4) (funext fun a => Fin.ext ?_)
  match a with
  | ⟨0, _⟩ => show win1_11.index t (0 : Fin 2) * 256 + 1 * (y 0).val = (y 0).val; omega
  | ⟨1, _⟩ => show win1_11.index t (1 : Fin 2) * 32 + 1 * (y 1).val = (y 1).val; omega

/-- Window 12's block is the whole vector at every point. -/
theorem whole12 (c : Dev nD) (t : Fin cfg1.N) : (iblk1 V c 12 t : Vec Ideal S32 .f32) = V c main_arg11 := by
  funext y
  have e := idx_whole t
  unfold iblk1
  rw [View.read_apply]
  show V c main_arg11 (((cfg1.win 12).blk t).view.emb y) = V c main_arg11 y
  refine congrArg (V c main_arg11) (funext fun a => Fin.ext ?_)
  match a with
  | ⟨0, _⟩ => show win1_12.index t (0 : Fin 1) * 32 + 1 * (y 0).val = (y 0).val; omega

/-- The staged computation of the arrays the kernel finds. -/
abbrev found (c : Dev nD) : Buf (Elt Ideal) ((c : Thread nD τ).loc main_v5) :=
  Cert.Spec.whole (F := Ideal) (V c main_arg0) (V c main_arg1) (V c main_arg2) (V c main_arg3) (V c main_v0)
    (V c main_v1) (V c main_arg5) (V c main_v2) (V c main_arg7) (V c main_v3) (V c main_arg9) (V c main_v4)
    (V c main_arg11)

/-- What point `t` writes back is block `t` of the staged computation. -/
theorem flushed_eq (c : Dev nD) (t : Fin cfg1.N) :
    (dat1 V c).flushed 13 t = ((cfg1.win 13).blk t).view.read (Elt Ideal) (found V c) := by
  show (cfg1.win 13).cut (grid1.coords t) ((dat1 V c).after 13 t) = _
  rw [after1_13]
  unfold out1_13
  rw [View.canon_unit_zero hz2]
  simp only [View.ld_unit_zero (S := S1024x2) hz2, View.ld_unit_zero (S := S1x4) hz2, View.ld_unit_zero (S := S8x32) hz2,
    View.ld_unit_zero (S := S32) hz1, View.ld_unit_zero (S := S1024x256) hz2, View.ld_unit_zero (S := S32x1024) hz2,
    View.ld_unit_zero (S := S1024) hz1, View.ld_unit_zero (S := S256x1024) hz2, View.ld_unit_zero (S := S256x32) hz2]
  funext y
  obtain ⟨p, q, rfl⟩ : ∃ (p : Fin 1024) (q : Fin 32), y = ix2 p q := ⟨y 0, y 1, eq_ix2 y⟩
  have e := idx_rows t
  have hN : t.val < 128 := lt_of_lt_of_eq t.isLt N_1
  rw [View.read_apply]
  refine (Cert.Hand.Rows.body_rows_of t.val (V c main_arg0) (V c main_arg1) (V c main_arg2) (V c main_arg3) (V c main_v0)
    (V c main_v1) (V c main_arg5) (V c main_v2) (V c main_arg7) (V c main_v3) (V c main_arg9) (V c main_v4) (V c main_arg11)
    (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t)
    (rows0 V c t) (rows1 V c t) (rows2 V c t) (rows3 V c t) (whole4 V c t) (whole5 V c t) (whole6 V c t) (whole7 V c t)
    (whole8 V c t) (whole9 V c t) (whole10 V c t) (whole11 V c t) (whole12 V c t)
    p q ⟨1024 * t.val + p.val, by have := p.isLt; omega⟩ rfl).trans ?_
  refine congrArg (found V c) (funext fun a => Fin.ext ?_)
  match a with
  | ⟨0, _⟩ => show 1024 * t.val + p.val = win1_13.index t (0 : Fin 2) * 1024 + 1 * p.val; omega
  | ⟨1, _⟩ => show q.val = win1_13.index t (1 : Fin 2) * 32 + 1 * q.val; omega

/-- An index of the result array is in point `t`'s block iff each coordinate is in the block's range. -/
theorem mem_blk (t : Fin cfg1.N) (i : S131072x32.Idx) :
    i ∈ ((cfg1.win 13).blk t).view.set ↔ ∀ a : Fin 2, win1_13.index t a * S1024x32.size a ≤ (i a).val
      ∧ (i a).val < win1_13.index t a * S1024x32.size a + S1024x32.size a := by
  show i ∈ ((View.whole main_v5).slice (win1_13.rect t)).set ↔ _
  rw [View.set_slice_whole, Rect.mem_set_unit]
  exact Iff.rfl

/-- After the second kernel's 128 grid points its result array holds the staged computation of the arrays the
    kernel found on entry: the four streamed arrays row block by row block, the total row, the transposed weights
    and the biases whole. -/
theorem arr_out (c : Dev nD) :
    (dat1 V c).arrAt 13 cfg1.N
      = (Cert.Spec.whole (F := Ideal) (V c main_arg0) (V c main_arg1) (V c main_arg2) (V c main_arg3) (V c main_v0)
          (V c main_v1) (V c main_arg5) (V c main_v2) (V c main_arg7) (V c main_v3) (V c main_arg9) (V c main_v4)
          (V c main_arg11) : Buf (Elt Ideal) ((c : Thread nD τ).loc main_v5)) :=
  (dat1 V c).arrAt_eq_of_cover 13 (found V c) (fun t _ => flushed_eq V c t) fun i => by
    have hi0 : (i 0).val < 131072 := (i 0).isLt
    have hi1 : (i 1).val < 32 := (i 1).isLt
    refine ⟨⟨(i 0).val / 1024, by rw [show cfg1.N = 128 from N_1]; omega⟩, flush1_13 _, ?_⟩
    rw [mem_blk]
    have e := idx_rows ⟨(i 0).val / 1024, by rw [show cfg1.N = 128 from N_1]; omega⟩
    intro a
    match a with
    | ⟨0, _⟩ =>
      show win1_13.index _ (0 : Fin 2) * 1024 ≤ (i 0).val ∧ (i 0).val < win1_13.index _ (0 : Fin 2) * 1024 + 1024
      rw [e.2.2.2.2.2.2.2.2.1]; dsimp only; omega
    | ⟨1, _⟩ =>
      show win1_13.index _ (1 : Fin 2) * 32 ≤ (i 1).val ∧ (i 1).val < win1_13.index _ (1 : Fin 2) * 32 + 32
      rw [e.2.2.2.2.2.2.2.2.2]; omega

end Cert.Hand.Blocks

end
-- ==== Proof.lean ====
/-
  Two Pallas kernels against one jnp function.

  The first kernel streams the two observation arrays once and leaves the column sums of [o₂ | o₂ − o₁] in a
  [1, 4] row; the host transposes the four weight matrices; the second kernel, on each block of 1024 rows,
  rebuilds the states, subtracts them from the total row, embeds, runs the LSTM cell and projects. The reference
  does the same on whole arrays. Over the extended reals the two results are the same function of the inputs:
  a sum accumulated block by block is the whole sum (addition is commutative and associative, infinities
  included), every later stage treats rows independently, narrowing an operand to bf16 is the identity, and the
  kernel's logistic is the reference's 1 / (1 + e⁻ᶻ). No step needs the inputs to be finite.

  The three frames: the two kernel programs by the generated frame certificates, the reference by its generated
  run. The idealization rewrote nothing, so `preserves` is `True`.
-/
import proofs.«122400_j46634754900237_1_alg».proof.Defs
import proofs.«122400_j46634754900237_1_alg».proof.Proof.Gen.Kernel
import proofs.«122400_j46634754900237_1_alg».proof.Proof.Gen.Kernel.Frame
import proofs.«122400_j46634754900237_1_alg».proof.Proof.Gen.KernelIdeal
import proofs.«122400_j46634754900237_1_alg».proof.Proof.Gen.KernelIdeal.Frame
import proofs.«122400_j46634754900237_1_alg».proof.Proof.Gen.ReferenceIdeal
import proofs.«122400_j46634754900237_1_alg».proof.Proof.Gen.Pre_finite_inputs
import proofs.«122400_j46634754900237_1_alg».proof.Proof.RefRun
import proofs.«122400_j46634754900237_1_alg».proof.Proof.Launch
import proofs.«122400_j46634754900237_1_alg».proof.Proof.Between
import proofs.«122400_j46634754900237_1_alg».proof.Proof.Total
import proofs.«122400_j46634754900237_1_alg».proof.Proof.Blocks
import Idealize.ShloMosaic.Adequacy
import Idealize.ShloMosaic.Init

noncomputable section

namespace Cert.Proof

open Idealize.ShloMosaic Idealize.ShloMosaic.TcCoe Idealize.SL.Sem

section KernelValue

open Cert.KernelIdeal Cert.KernelIdeal.Gen

variable (m : (ℓ : Loc nD τ sig) → Buf (Elt Ideal) ℓ) (ρ : Dev nD → PrngReg)

/-- What the two-kernel program leaves in its result array: the staged computation of the launch arrays, the
    total row computed from the two observation arrays, the weights transposed. -/
def kernelResult (c : Dev nD) : Buf (Elt Ideal) ((c : Thread nD τ).loc main_v5) :=
  Cert.Spec.whole (F := Ideal) (m ((c : Thread nD τ).loc main_arg0)) (m ((c : Thread nD τ).loc main_arg1)) (m ((c : Thread nD τ).loc main_arg2)) (m ((c : Thread nD τ).loc main_arg3))
    (Cert.Spec.totalRow (F := Ideal) (m ((c : Thread nD τ).loc main_arg0)) (m ((c : Thread nD τ).loc main_arg1)))
    (transpose S8x32 [1, 0] (m ((c : Thread nD τ).loc main_arg4)) transposes_S32x8_S8x32_1_0) (m ((c : Thread nD τ).loc main_arg5))
    (transpose S32x1024 [1, 0] (m ((c : Thread nD τ).loc main_arg6)) transposes_S1024x32_S32x1024_1_0) (m ((c : Thread nD τ).loc main_arg7))
    (transpose S256x1024 [1, 0] (m ((c : Thread nD τ).loc main_arg8)) transposes_S1024x256_S256x1024_1_0) (m ((c : Thread nD τ).loc main_arg9))
    (transpose S256x32 [1, 0] (m ((c : Thread nD τ).loc main_arg10)) transposes_S32x256_S256x32_1_0) (m ((c : Thread nD τ).loc main_arg11))

/-- The last boundary's contents at the result array are that computation: the second kernel's result array is
    the staged computation of the arrays it found, and of those the total row is what the first kernel left, the
    weights are the launch's transposed, and the rest are the launch's own. -/
theorem kernel_result (c : Dev nD) : W3 m ρ c (Proc.devRef .tc main_v5) = kernelResult m c := by
  rw [Cert.KernelIdeal.Launch.result_at, Cert.Hand.Blocks.arr_out, Cert.Hand.Between.V2_v0, Cert.Hand.Total.arr_total,
    Cert.Hand.Between.V0_arg0, Cert.Hand.Between.V0_arg1,
    Cert.Hand.Between.V2_arg0, Cert.Hand.Between.V2_arg1, Cert.Hand.Between.V2_arg2, Cert.Hand.Between.V2_arg3,
    Cert.Hand.Between.V2_arg5, Cert.Hand.Between.V2_arg7, Cert.Hand.Between.V2_arg9, Cert.Hand.Between.V2_arg11,
    Cert.Hand.Between.V2_v1, Cert.Hand.Between.V2_v2, Cert.Hand.Between.V2_v3, Cert.Hand.Between.V2_v4]
  rfl

end KernelValue

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the staged computation of the (agreeing) argument arrays in their result arrays. -/
theorem algebraic : Cert.algebraic_KernelIdeal_ReferenceIdeal := by
  intro m ρ m' ρ' _ hagree
  refine ⟨fun c => kernelResult m c, ?_, ?_⟩
  · exact (θ_run Cert.KernelIdeal.defs _ _).mono (fun r h c => ⟨(h c).1.trans (kernel_result m ρ c), (h c).2⟩)
      (Cert.KernelIdeal.Launch.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.RefSide.res_eq]
    unfold Cert.RefSide.result
    rw [e0, e1, e2, e3, e4, e5, e6, e7, e8, e9, e10, e11]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
